-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64 .f32) (main_arg10 : FVec F S64x64 .f32) (main_arg11 : FVec F S1x64 .f32) (main_arg12 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S1x64 .f32 := Host.absf main_arg11
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S64x128 .f32) (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S128x64 : Shape := ⟨2, ![128, 64]⟩
abbrev S100000x64 : Shape := ⟨2, ![100000, 64]⟩
abbrev S4000x128 : Shape := ⟨2, ![4000, 128]⟩
abbrev S4000x64 : Shape := ⟨2, ![4000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S4000x1 : Shape := ⟨2, ![4000, 1]⟩
abbrev S64x1 : Shape := ⟨2, ![64, 1]⟩
abbrev S1x1 : Shape := ⟨2, ![1, 1]⟩

abbrev nBuf : Space → Nat
  | .hbm => 71
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S128x64, .f32⟩
  | .hbm, ⟨18, _⟩ => ⟨S1x64, .f32⟩
  | .hbm, ⟨19, _⟩ => ⟨S100000x64, .bf16⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x64, .bf16⟩
  | .hbm, ⟨29, _⟩ => ⟨S3200000x64, .f32⟩
  | .hbm, ⟨30, _⟩ => ⟨S_, .f32⟩
  | .hbm, ⟨31, _⟩ => ⟨S100000x64, .f32⟩
  | .hbm, ⟨32, _⟩ => ⟨S3200000x1, .i32⟩
  | .hbm, ⟨33, _⟩ => ⟨S100000x64, .f32⟩
  | .hbm, ⟨34, _⟩ => ⟨S_, .f32⟩
  | .hbm, ⟨35, _⟩ => ⟨S3200000, .f32⟩
  | .hbm, ⟨36, _⟩ => ⟨S_, .f32⟩
  | .hbm, ⟨37, _⟩ => ⟨S100000, .f32⟩
  | .hbm, ⟨38, _⟩ => ⟨S3200000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S100000x64, .bf16⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .bf16⟩
  | .hbm, ⟨60, _⟩ => ⟨S3200000x64, .f32⟩
  | .hbm, ⟨61, _⟩ => ⟨S_, .f32⟩
  | .hbm, ⟨62, _⟩ => ⟨S100000x64, .f32⟩
  | .hbm, ⟨63, _⟩ => ⟨S3200000x1, .i32⟩
  | .hbm, ⟨64, _⟩ => ⟨S100000x64, .f32⟩
  | .hbm, ⟨65, _⟩ => ⟨S64x64, .f32⟩
  | .hbm, ⟨66, _⟩ => ⟨S64x64, .f32⟩
  | .hbm, ⟨67, _⟩ => ⟨S64x1, .f32⟩
  | .hbm, ⟨68, _⟩ => ⟨S1x64, .f32⟩
  | .hbm, ⟨69, _⟩ => ⟨S1x1, .f32⟩
  | .hbm, ⟨70, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x64, .bf16⟩
  | .local _ .vmem, ⟨5, _⟩ => ⟨S4000x64, .bf16⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S4000x64, .bf16⟩
  | .local _ .vmem, ⟨11, _⟩ => ⟨S4000x64, .bf16⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S4000x64, .bf16⟩
  | .local _ .vmem, ⟨16, _⟩ => ⟨S4000x64, .bf16⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S4000x64, .bf16⟩
  | .local _ .vmem, ⟨22, _⟩ => ⟨S4000x64, .bf16⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S64x1, .f32⟩
  | .local _ .vmem, ⟨27, _⟩ => ⟨S1x1, .f32⟩
  | .local _ .vmem, ⟨28, _⟩ => ⟨S4000x1, .f32⟩
  | .local _ .vmem, ⟨29, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x128_S128x64_1_0 : S64x128.Transposes [1, 0] S128x64
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  dot_S4000x128_S128x64_S4000x64_1_0_0_1_n_n_wf : DotDims.WF S4000x128 S128x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .bf16 = 32 ∨ (Rect.block (s := S100000x64) S4000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .bf16 = 32 ∨ (Rect.block (s := S100000x64) S4000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .bf16 = 32 ∨ (Rect.block (s := S100000x64) S4000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x1.size a ≤ S100000x1.size a
  hwx2_8 : ∀ i : grid2.Coords, EltTy.bits .f32 = 32 ∨ (Rect.block (s := S100000x1) S4000x1.size (cc2_transform_8 i) (hinb2_8 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S4000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S128x64 : Shape := ⟨2, ![128, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S64x1 : Shape := ⟨2, ![64, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S128x64, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S_, .f32⟩
  | .hbm, ⟨35, _⟩ => ⟨S100000x64, .f32⟩
  | .hbm, ⟨36, _⟩ => ⟨S3200000x1, .i32⟩
  | .hbm, ⟨37, _⟩ => ⟨S100000x64, .f32⟩
  | .hbm, ⟨38, _⟩ => ⟨S_, .f32⟩
  | .hbm, ⟨39, _⟩ => ⟨S3200000, .f32⟩
  | .hbm, ⟨40, _⟩ => ⟨S_, .f32⟩
  | .hbm, ⟨41, _⟩ => ⟨S100000, .f32⟩
  | .hbm, ⟨42, _⟩ => ⟨S3200000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S64x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x64, .f32⟩
  | .hbm, ⟨70, _⟩ => ⟨S_, .f32⟩
  | .hbm, ⟨71, _⟩ => ⟨S100000x64, .f32⟩
  | .hbm, ⟨72, _⟩ => ⟨S3200000x1, .i32⟩
  | .hbm, ⟨73, _⟩ => ⟨S100000x64, .f32⟩
  | .hbm, ⟨74, _⟩ => ⟨S_, .f32⟩
  | .hbm, ⟨75, _⟩ => ⟨S3200000, .f32⟩
  | .hbm, ⟨76, _⟩ => ⟨S_, .f32⟩
  | .hbm, ⟨77, _⟩ => ⟨S100000, .f32⟩
  | .hbm, ⟨78, _⟩ => ⟨S3200000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S64x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S64x64, .f32⟩
  | .hbm, ⟨92, _⟩ => ⟨S100000x64, .f32⟩
  | .hbm, ⟨93, _⟩ => ⟨S100000x64, .f32⟩
  | .hbm, ⟨94, _⟩ => ⟨S64x1, .f32⟩
  | .hbm, ⟨95, _⟩ => ⟨S100000x1, .f32⟩
  | .hbm, ⟨96, _⟩ => ⟨S1x1, .f32⟩
  | .hbm, ⟨97, _⟩ => ⟨S100000x1, .f32⟩
  | .hbm, ⟨98, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Dense.lean ====
/-
  What each of the three dense stages of the graph network leaves in its result array, as one
  function of the arrays the stage reads, index by index, on the extended reals.

  * `fcRelu x wT b`: row `p`, column `q` holds `max (∑ k, x[p,k] · wT[k,q] + b[0,q]) 0`: the input
    projection followed by the rectifier.
  * `sageAt a d h wlT bl wrT p q`: `(∑ k, (a[p,k] · d[p,0]) · wlT[k,q] + bl[0,q]) + ∑ k, h[p,k] · wrT[k,q]`:
    the neighbour sum `a` scaled by the reciprocal degree `d`, through the neighbour weights, plus the
    bias, plus the node's own features through the root weights.
  * `sage1` is `sageAt` followed by the rectifier; `sage2head` is `sageAt` (no rectifier) contracted
    with the head's column `hwT` plus the head's bias.
-/
import proofs.«419804_j55628416418294_3_alg».proof.KernelIdeal
import Idealize.ShloMosaic.PureOps.Ideal
import Idealize.ShloMosaic.Lib.ValueIdx

noncomputable section

namespace Cert.KernelIdeal.Dense

open Cert.KernelIdeal Idealize.ShloMosaic Idealize.ShloMosaic.ValueIdx

/-- The rectifier's threshold: the float zero, kept as its word. -/
abbrev zero32 : EReal := Ideal.ofBits .f32 0x00000000#32

/-- Row `p`, column `q` of the input projection with its bias, rectified. -/
def fcReluAt (x : FVec Ideal S100000x128 .f32) (wT : FVec Ideal S128x64 .f32) (b : FVec Ideal S1x64 .f32)
    (p : Fin 100000) (q : Fin 64) : EReal :=
  max ((∑ k : Fin 128, x (ix2 p k) * wT (ix2 k q)) + b (ix2 0 q)) zero32

/-- The input projection's whole result array. -/
def fcRelu (x : FVec Ideal S100000x128 .f32) (wT : FVec Ideal S128x64 .f32) (b : FVec Ideal S1x64 .f32) :
    FVec Ideal S100000x64 .bf16 :=
  fun i => fcReluAt x wT b ⟨(i 0).val, idx2_lt0 i⟩ ⟨(i 1).val, idx2_lt1 i⟩

/-- Row `p`, column `q` of one graph layer before any rectifier: the neighbour sum `a` scaled by the
    reciprocal degree `d`, through `wlT`, plus the bias `bl`, plus the node's own row of `h` through `wrT`. -/
def sageAt (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (p : Fin 100000) (q : Fin 64) : EReal :=
  ((∑ k : Fin 64, (a (ix2 p k) * d (ix2 p 0)) * wlT (ix2 k q)) + bl (ix2 0 q)) + ∑ k : Fin 64, h (ix2 p k) * wrT (ix2 k q)

/-- The first graph layer's whole result array: `sageAt`, rectified. -/
def sage1 (a : FVec Ideal S100000x64 .f32) (d : FVec Ideal S100000x1 .f32) (h : FVec Ideal S100000x64 .bf16)
    (wlT : FVec Ideal S64x64 .f32) (bl : FVec Ideal S1x64 .f32) (wrT : FVec Ideal S64x64 .f32) :
    FVec Ideal S100000x64 .bf16 :=
  fun i => max (sageAt a d h wlT bl wrT ⟨(i 0).val, idx2_lt0 i⟩ ⟨(i 1).val, idx2_lt1 i⟩) zero32

/-- The second graph layer (no rectifier) contracted with the head's weights `hwT`, plus the head's bias `hb`. -/
def sage2head (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (hwT : FVec Ideal S64x1 .f32) (hb : FVec Ideal S1x1 .f32) : FVec Ideal S100000x1 .f32 :=
  fun i => (∑ j : Fin 64, sageAt a d h wlT bl wrT ⟨(i 0).val, idx2_lt0 i⟩ j * hwT (ix2 j 0)) + hb (ix2 0 0)

end Cert.KernelIdeal.Dense

end
-- ==== Proof.Host.lean ====
/-
  What the arrays hold when each of the three regions is entered, as terms of the launch memory and of what the
  earlier regions left: the stretches of host operations before and between the regions, read back one result
  at a time. The graph step (gather the rows at the edges' sources, add them at the edges' targets; count the
  in-degree) is named once, as `neighbourSum` and `recipDegree`, and is never opened.
-/
import proofs.«419804_j55628416418294_3_alg».proof.Proof.Gen.KernelIdeal.Frame
import Idealize.ShloMosaic.Lib.StableHlo.Run
import Idealize.ShloMosaic.PureOps.Ideal

set_option maxRecDepth 16384

noncomputable section

namespace Cert.KernelIdeal.Dense

open Cert.KernelIdeal Cert.KernelIdeal.Gen
open Idealize.ShloMosaic Idealize.ShloMosaic.TcCoe Idealize.SL.Sem Idealize.ShloMosaic.StableHlo

/-! ## The graph step, named -/

/-- The sources of the edges: row 0 of the edge list. -/
def edgeSrc (e : IVec S2x3200000 32) : IVec S3200000 32 :=
  shapeCast S3200000 (extractStridedSlice S1x3200000 ![0, 0] e slices_S2x3200000_S1x3200000_0_0) shapeCasts_S1x3200000_S3200000

/-- The targets of the edges: row 1 of the edge list. -/
def edgeDst (e : IVec S2x3200000 32) : IVec S3200000 32 :=
  shapeCast S3200000 (extractStridedSlice S1x3200000 ![1, 0] e slices_S2x3200000_S1x3200000_1_0) shapeCasts_S1x3200000_S3200000

/-- The edges' sources, a negative one counted from the end of the node axis. -/
def wrapSrc (src : IVec S3200000 32) : IVec S3200000 32 :=
  select (cmpi .slt src (broadcastInDim S3200000 ![] bcast_S_S3200000 (constantI S_ 32 0#32)))
    (addi src (broadcastInDim S3200000 ![] bcast_S_S3200000 (constantI S_ 32 100000#32))) src

/-- The neighbour sum: the rows of `h` gathered at the edges' sources, each added into the row of its edge's target. -/
def neighbourSum (src dst : IVec S3200000 32) (h : FVec Ideal S100000x64 .f32) : FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Host.gather gather_S100000x64_S3200000x1_S3200000x64_1_0_n_n_0_1_164 h
      (broadcastInDim S3200000x1 ![0] bcast_S3200000_S3200000x1_0 (wrapSrc src)))

/-- The in-degree of every node: one added at the target of every edge. -/
def inDegree (dst : IVec S3200000 32) : FVec Ideal S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 dst)
    (broadcastInDim S3200000 ![] bcast_S_S3200000 (constant S_ .f32 0x3F800000#32))

/-- The in-degree raised to one where it is less. -/
def degreeFloor (dst : IVec S3200000 32) : FVec Ideal S100000 .f32 :=
  maximumf (inDegree dst) (broadcastInDim S100000 ![] bcast_S_S100000 (constant S_ .f32 0x3F800000#32))

/-- One over the floored in-degree, as a column. -/
def recipDegree (dst : IVec S3200000 32) : FVec Ideal S100000x1 .f32 :=
  shapeCast S100000x1
    (Host.divf (broadcastInDim S100000 ![] bcast_S_S100000 (constant S_ .f32 0x3F800000#32)) (degreeFloor dst))
    shapeCasts_S100000_S100000x1

variable (m : (ℓ : Loc nD τ sig) → Buf (Elt Ideal) ℓ) (ρ : Dev nD → PrngReg)

/-! ## Before the first region: the edge list split in two, the projection's weights transposed, its bias as a row -/

theorem entry0_x (c : Dev nD) : V1 m ρ c main_arg0 = m ((c : Thread nD τ).loc main_arg0) := by
  show StableHlo.after hostOps0 (W0 m ρ c) (Proc.devRef .tc main_arg0) = _
  after_results <;> rfl

theorem entry0_wT (c : Dev nD) :
    V1 m ρ c main_v4 = transpose S128x64 [1, 0] (m ((c : Thread nD τ).loc main_arg3)) transposes_S64x128_S128x64_1_0 := by
  show StableHlo.after hostOps0 (W0 m ρ c) (Proc.devRef .tc main_v4) = _
  after_results <;> rfl

theorem entry0_b (c : Dev nD) :
    V1 m ρ c main_v5 = shapeCast S1x64 (m ((c : Thread nD τ).loc main_arg4)) shapeCasts_S64_S1x64 := by
  show StableHlo.after hostOps0 (W0 m ρ c) (Proc.devRef .tc main_v5) = _
  after_results <;> rfl

/-! ## What the first stretch leaves for the later ones: the two halves of the edge list, and the weights untouched -/

theorem first_src (c : Dev nD) : W1 m ρ c (Proc.devRef .tc main_v1) = edgeSrc (m ((c : Thread nD τ).loc main_arg1)) := by
  show StableHlo.after hostOps0 (W0 m ρ c) (Proc.devRef .tc main_v1) = _
  after_results <;> rfl

theorem first_dst (c : Dev nD) : W1 m ρ c (Proc.devRef .tc main_v3) = edgeDst (m ((c : Thread nD τ).loc main_arg1)) := by
  show StableHlo.after hostOps0 (W0 m ρ c) (Proc.devRef .tc main_v3) = _
  after_results <;> rfl

theorem first_arg5 (c : Dev nD) : W1 m ρ c (Proc.devRef .tc main_arg5) = m ((c : Thread nD τ).loc main_arg5) := by
  show StableHlo.after hostOps0 (W0 m ρ c) (Proc.devRef .tc main_arg5) = _
  after_results <;> rfl

theorem first_arg6 (c : Dev nD) : W1 m ρ c (Proc.devRef .tc main_arg6) = m ((c : Thread nD τ).loc main_arg6) := by
  show StableHlo.after hostOps0 (W0 m ρ c) (Proc.devRef .tc main_arg6) = _
  after_results <;> rfl

theorem first_arg7 (c : Dev nD) : W1 m ρ c (Proc.devRef .tc main_arg7) = m ((c : Thread nD τ).loc main_arg7) := by
  show StableHlo.after hostOps0 (W0 m ρ c) (Proc.devRef .tc main_arg7) = _
  after_results <;> rfl

theorem first_arg8 (c : Dev nD) : W1 m ρ c (Proc.devRef .tc main_arg8) = m ((c : Thread nD τ).loc main_arg8) := by
  show StableHlo.after hostOps0 (W0 m ρ c) (Proc.devRef .tc main_arg8) = _
  after_results <;> rfl

theorem first_arg9 (c : Dev nD) : W1 m ρ c (Proc.devRef .tc main_arg9) = m ((c : Thread nD τ).loc main_arg9) := by
  show StableHlo.after hostOps0 (W0 m ρ c) (Proc.devRef .tc main_arg9) = _
  after_results <;> rfl

theorem first_arg10 (c : Dev nD) : W1 m ρ c (Proc.devRef .tc main_arg10) = m ((c : Thread nD τ).loc main_arg10) := by
  show StableHlo.after hostOps0 (W0 m ρ c) (Proc.devRef .tc main_arg10) = _
  after_results <;> rfl

theorem first_arg11 (c : Dev nD) : W1 m ρ c (Proc.devRef .tc main_arg11) = m ((c : Thread nD τ).loc main_arg11) := by
  show StableHlo.after hostOps0 (W0 m ρ c) (Proc.devRef .tc main_arg11) = _
  after_results <;> rfl

theorem first_arg12 (c : Dev nD) : W1 m ρ c (Proc.devRef .tc main_arg12) = m ((c : Thread nD τ).loc main_arg12) := by
  show StableHlo.after hostOps0 (W0 m ρ c) (Proc.devRef .tc main_arg12) = _
  after_results <;> rfl

/-! ## After the first region: its result array at what its write-backs leave, everything else as before -/

theorem second_h (c : Dev nD) : W2 m ρ c (Proc.devRef .tc main_v6) = (dat0 (V1 m ρ) c).arrAt 3 cfg0.N := W2_arr m ρ c 3

theorem second_src (c : Dev nD) : W2 m ρ c (Proc.devRef .tc main_v1) = edgeSrc (m ((c : Thread nD τ).loc main_arg1)) :=
  (W2_of_ne m ρ c main_v1 (by decide)).trans (first_src m ρ c)

theorem second_dst (c : Dev nD) : W2 m ρ c (Proc.devRef .tc main_v3) = edgeDst (m ((c : Thread nD τ).loc main_arg1)) :=
  (W2_of_ne m ρ c main_v3 (by decide)).trans (first_dst m ρ c)

theorem second_arg5 (c : Dev nD) : W2 m ρ c (Proc.devRef .tc main_arg5) = m ((c : Thread nD τ).loc main_arg5) :=
  (W2_of_ne m ρ c main_arg5 (by decide)).trans (first_arg5 m ρ c)

theorem second_arg6 (c : Dev nD) : W2 m ρ c (Proc.devRef .tc main_arg6) = m ((c : Thread nD τ).loc main_arg6) :=
  (W2_of_ne m ρ c main_arg6 (by decide)).trans (first_arg6 m ρ c)

theorem second_arg7 (c : Dev nD) : W2 m ρ c (Proc.devRef .tc main_arg7) = m ((c : Thread nD τ).loc main_arg7) :=
  (W2_of_ne m ρ c main_arg7 (by decide)).trans (first_arg7 m ρ c)

theorem second_arg8 (c : Dev nD) : W2 m ρ c (Proc.devRef .tc main_arg8) = m ((c : Thread nD τ).loc main_arg8) :=
  (W2_of_ne m ρ c main_arg8 (by decide)).trans (first_arg8 m ρ c)

theorem second_arg9 (c : Dev nD) : W2 m ρ c (Proc.devRef .tc main_arg9) = m ((c : Thread nD τ).loc main_arg9) :=
  (W2_of_ne m ρ c main_arg9 (by decide)).trans (first_arg9 m ρ c)

theorem second_arg10 (c : Dev nD) : W2 m ρ c (Proc.devRef .tc main_arg10) = m ((c : Thread nD τ).loc main_arg10) :=
  (W2_of_ne m ρ c main_arg10 (by decide)).trans (first_arg10 m ρ c)

theorem second_arg11 (c : Dev nD) : W2 m ρ c (Proc.devRef .tc main_arg11) = m ((c : Thread nD τ).loc main_arg11) :=
  (W2_of_ne m ρ c main_arg11 (by decide)).trans (first_arg11 m ρ c)

theorem second_arg12 (c : Dev nD) : W2 m ρ c (Proc.devRef .tc main_arg12) = m ((c : Thread nD τ).loc main_arg12) :=
  (W2_of_ne m ρ c main_arg12 (by decide)).trans (first_arg12 m ρ c)

/-! ## Before the second region -/

theorem entry1_agg (c : Dev nD) :
    V3 m ρ c main_v17 = neighbourSum (edgeSrc (m ((c : Thread nD τ).loc main_arg1))) (edgeDst (m ((c : Thread nD τ).loc main_arg1)))
      ((dat0 (V1 m ρ) c).arrAt 3 cfg0.N) := by
  rw [← second_src m ρ c, ← second_dst m ρ c, ← second_h m ρ c]
  show StableHlo.after hostOps1 (W2 m ρ c) (Proc.devRef .tc main_v17) = _
  after_results <;> rfl

theorem entry1_deg (c : Dev nD) : V3 m ρ c main_v26 = recipDegree (edgeDst (m ((c : Thread nD τ).loc main_arg1))) := by
  rw [← second_dst m ρ c]
  show StableHlo.after hostOps1 (W2 m ρ c) (Proc.devRef .tc main_v26) = _
  after_results <;> rfl

theorem entry1_h (c : Dev nD) : V3 m ρ c main_v6 = (dat0 (V1 m ρ) c).arrAt 3 cfg0.N := by
  rw [← second_h m ρ c]
  show StableHlo.after hostOps1 (W2 m ρ c) (Proc.devRef .tc main_v6) = _
  after_results <;> rfl

theorem entry1_wlT (c : Dev nD) :
    V3 m ρ c main_v27 = transpose S64x64 [1, 0] (m ((c : Thread nD τ).loc main_arg5)) transposes_S64x64_S64x64_1_0 := by
  rw [← second_arg5 m ρ c]
  show StableHlo.after hostOps1 (W2 m ρ c) (Proc.devRef .tc main_v27) = _
  after_results <;> rfl

theorem entry1_wrT (c : Dev nD) :
    V3 m ρ c main_v28 = transpose S64x64 [1, 0] (m ((c : Thread nD τ).loc main_arg7)) transposes_S64x64_S64x64_1_0 := by
  rw [← second_arg7 m ρ c]
  show StableHlo.after hostOps1 (W2 m ρ c) (Proc.devRef .tc main_v28) = _
  after_results <;> rfl

theorem entry1_bl (c : Dev nD) :
    V3 m ρ c main_v29 = shapeCast S1x64 (m ((c : Thread nD τ).loc main_arg6)) shapeCasts_S64_S1x64 := by
  rw [← second_arg6 m ρ c]
  show StableHlo.after hostOps1 (W2 m ρ c) (Proc.devRef .tc main_v29) = _
  after_results <;> rfl

/-! ## What the second stretch and the second region leave for the third -/

theorem third_keeps_main_v1 (c : Dev nD) : W3 m ρ c (Proc.devRef .tc main_v1) = W2 m ρ c (Proc.devRef .tc main_v1) := by
  show StableHlo.after hostOps1 (W2 m ρ c) (Proc.devRef .tc main_v1) = _
  after_results <;> rfl

theorem third_keeps_main_v3 (c : Dev nD) : W3 m ρ c (Proc.devRef .tc main_v3) = W2 m ρ c (Proc.devRef .tc main_v3) := by
  show StableHlo.after hostOps1 (W2 m ρ c) (Proc.devRef .tc main_v3) = _
  after_results <;> rfl

theorem third_keeps_main_arg8 (c : Dev nD) : W3 m ρ c (Proc.devRef .tc main_arg8) = W2 m ρ c (Proc.devRef .tc main_arg8) := by
  show StableHlo.after hostOps1 (W2 m ρ c) (Proc.devRef .tc main_arg8) = _
  after_results <;> rfl

theorem third_keeps_main_arg9 (c : Dev nD) : W3 m ρ c (Proc.devRef .tc main_arg9) = W2 m ρ c (Proc.devRef .tc main_arg9) := by
  show StableHlo.after hostOps1 (W2 m ρ c) (Proc.devRef .tc main_arg9) = _
  after_results <;> rfl

theorem third_keeps_main_arg10 (c : Dev nD) : W3 m ρ c (Proc.devRef .tc main_arg10) = W2 m ρ c (Proc.devRef .tc main_arg10) := by
  show StableHlo.after hostOps1 (W2 m ρ c) (Proc.devRef .tc main_arg10) = _
  after_results <;> rfl

theorem third_keeps_main_arg11 (c : Dev nD) : W3 m ρ c (Proc.devRef .tc main_arg11) = W2 m ρ c (Proc.devRef .tc main_arg11) := by
  show StableHlo.after hostOps1 (W2 m ρ c) (Proc.devRef .tc main_arg11) = _
  after_results <;> rfl

theorem third_keeps_main_arg12 (c : Dev nD) : W3 m ρ c (Proc.devRef .tc main_arg12) = W2 m ρ c (Proc.devRef .tc main_arg12) := by
  show StableHlo.after hostOps1 (W2 m ρ c) (Proc.devRef .tc main_arg12) = _
  after_results <;> rfl

theorem fourth_h (c : Dev nD) : W4 m ρ c (Proc.devRef .tc main_v30) = (dat1 (V3 m ρ) c).arrAt 6 cfg1.N := W4_arr m ρ c 6

theorem fourth_deg (c : Dev nD) : W4 m ρ c (Proc.devRef .tc main_v26) = recipDegree (edgeDst (m ((c : Thread nD τ).loc main_arg1))) :=
  (W4_arr m ρ c 1).trans ((((dat1 (V3 m ρ) c).arrAt_in 1 rfl _).trans (A_eq1 (V3 m ρ) c 1)).trans (entry1_deg m ρ c))

theorem fourth_src (c : Dev nD) : W4 m ρ c (Proc.devRef .tc main_v1) = edgeSrc (m ((c : Thread nD τ).loc main_arg1)) :=
  (W4_of_ne m ρ c main_v1 (by decide)).trans ((third_keeps_main_v1 m ρ c).trans (second_src m ρ c))

theorem fourth_dst (c : Dev nD) : W4 m ρ c (Proc.devRef .tc main_v3) = edgeDst (m ((c : Thread nD τ).loc main_arg1)) :=
  (W4_of_ne m ρ c main_v3 (by decide)).trans ((third_keeps_main_v3 m ρ c).trans (second_dst m ρ c))

theorem fourth_arg8 (c : Dev nD) : W4 m ρ c (Proc.devRef .tc main_arg8) = m ((c : Thread nD τ).loc main_arg8) :=
  (W4_of_ne m ρ c main_arg8 (by decide)).trans ((third_keeps_main_arg8 m ρ c).trans (second_arg8 m ρ c))

theorem fourth_arg9 (c : Dev nD) : W4 m ρ c (Proc.devRef .tc main_arg9) = m ((c : Thread nD τ).loc main_arg9) :=
  (W4_of_ne m ρ c main_arg9 (by decide)).trans ((third_keeps_main_arg9 m ρ c).trans (second_arg9 m ρ c))

theorem fourth_arg10 (c : Dev nD) : W4 m ρ c (Proc.devRef .tc main_arg10) = m ((c : Thread nD τ).loc main_arg10) :=
  (W4_of_ne m ρ c main_arg10 (by decide)).trans ((third_keeps_main_arg10 m ρ c).trans (second_arg10 m ρ c))

theorem fourth_arg11 (c : Dev nD) : W4 m ρ c (Proc.devRef .tc main_arg11) = m ((c : Thread nD τ).loc main_arg11) :=
  (W4_of_ne m ρ c main_arg11 (by decide)).trans ((third_keeps_main_arg11 m ρ c).trans (second_arg11 m ρ c))

theorem fourth_arg12 (c : Dev nD) : W4 m ρ c (Proc.devRef .tc main_arg12) = m ((c : Thread nD τ).loc main_arg12) :=
  (W4_of_ne m ρ c main_arg12 (by decide)).trans ((third_keeps_main_arg12 m ρ c).trans (second_arg12 m ρ c))

/-! ## Before the third region -/

theorem entry2_agg_read (c : Dev nD) :
    V5 m ρ c main_v41 = neighbourSum (W4 m ρ c (Proc.devRef .tc main_v1)) (W4 m ρ c (Proc.devRef .tc main_v3))
      (W4 m ρ c (Proc.devRef .tc main_v30)) := by
  show StableHlo.after hostOps2 (W4 m ρ c) (Proc.devRef .tc main_v41) = _
  after_results <;> rfl

theorem entry2_agg (c : Dev nD) :
    V5 m ρ c main_v41 = neighbourSum (edgeSrc (m ((c : Thread nD τ).loc main_arg1))) (edgeDst (m ((c : Thread nD τ).loc main_arg1)))
      ((dat1 (V3 m ρ) c).arrAt 6 cfg1.N) := by
  rw [entry2_agg_read m ρ c, fourth_src m ρ c, fourth_dst m ρ c, fourth_h m ρ c]

theorem entry2_deg (c : Dev nD) : V5 m ρ c main_v26 = recipDegree (edgeDst (m ((c : Thread nD τ).loc main_arg1))) := by
  rw [← fourth_deg m ρ c]
  show StableHlo.after hostOps2 (W4 m ρ c) (Proc.devRef .tc main_v26) = _
  after_results <;> rfl

theorem entry2_h (c : Dev nD) : V5 m ρ c main_v30 = (dat1 (V3 m ρ) c).arrAt 6 cfg1.N := by
  rw [← fourth_h m ρ c]
  show StableHlo.after hostOps2 (W4 m ρ c) (Proc.devRef .tc main_v30) = _
  after_results <;> rfl

theorem entry2_wlT (c : Dev nD) :
    V5 m ρ c main_v42 = transpose S64x64 [1, 0] (m ((c : Thread nD τ).loc main_arg8)) transposes_S64x64_S64x64_1_0 := by
  rw [← fourth_arg8 m ρ c]
  show StableHlo.after hostOps2 (W4 m ρ c) (Proc.devRef .tc main_v42) = _
  after_results <;> rfl

theorem entry2_wrT (c : Dev nD) :
    V5 m ρ c main_v43 = transpose S64x64 [1, 0] (m ((c : Thread nD τ).loc main_arg10)) transposes_S64x64_S64x64_1_0 := by
  rw [← fourth_arg10 m ρ c]
  show StableHlo.after hostOps2 (W4 m ρ c) (Proc.devRef .tc main_v43) = _
  after_results <;> rfl

theorem entry2_hwT (c : Dev nD) :
    V5 m ρ c main_v44 = transpose S64x1 [1, 0] (m ((c : Thread nD τ).loc main_arg11)) transposes_S1x64_S64x1_1_0 := by
  rw [← fourth_arg11 m ρ c]
  show StableHlo.after hostOps2 (W4 m ρ c) (Proc.devRef .tc main_v44) = _
  after_results <;> rfl

theorem entry2_bl (c : Dev nD) :
    V5 m ρ c main_v45 = shapeCast S1x64 (m ((c : Thread nD τ).loc main_arg9)) shapeCasts_S64_S1x64 := by
  rw [← fourth_arg9 m ρ c]
  show StableHlo.after hostOps2 (W4 m ρ c) (Proc.devRef .tc main_v45) = _
  after_results <;> rfl

theorem entry2_hb (c : Dev nD) :
    V5 m ρ c main_v46 = shapeCast S1x1 (m ((c : Thread nD τ).loc main_arg12)) shapeCasts_S1_S1x1 := by
  rw [← fourth_arg12 m ρ c]
  show StableHlo.after hostOps2 (W4 m ρ c) (Proc.devRef .tc main_v46) = _
  after_results <;> rfl

/-- The result array after the last region: what its write-backs leave. -/
theorem last_out (c : Dev nD) : W6 m ρ c (Proc.devRef .tc main_v47) = (dat2 (V5 m ρ) c).arrAt 8 cfg2.N := W6_arr m ρ c 8

end Cert.KernelIdeal.Dense

end
-- ==== Proof.Payload.lean ====
/-
  The arithmetic of each kernel body, read at one entry of the block it stores, on the extended reals: a product
  of a row block with a weight block is the sum over the contracted axis, a broadcast bias or a broadcast
  column of reciprocal degrees is read at its one row or one column, a change of float format is the identity.
-/
import proofs.«419804_j55628416418294_3_alg».proof.Proof.Gen.KernelIdeal.Skeleton
import proofs.«419804_j55628416418294_3_alg».proof.Proof.Dense
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Dense

open Cert.KernelIdeal Cert.KernelIdeal.Gen Idealize.ShloMosaic Idealize.ShloMosaic.ValueIdx

/-! ### A 4000×128 block times a 128×64 block -/

/-- The left operand is read on the result's row … -/
theorem lhs_fc_0 (i : S4000x64.Idx) (c : dot_S4000x128_S128x64_S4000x64_1_0_0_1_n_n.contr.Idx) :
    (dot_S4000x128_S128x64_S4000x64_1_0_0_1_n_n.lhsIdx i c 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … and on the contracted column. -/
theorem lhs_fc_1 (i : S4000x64.Idx) (c : dot_S4000x128_S128x64_S4000x64_1_0_0_1_n_n.contr.Idx) :
    (dot_S4000x128_S128x64_S4000x64_1_0_0_1_n_n.lhsIdx i c 1).val = (c ⟨0, by decide⟩).val :=
  dot_S4000x128_S128x64_S4000x64_1_0_0_1_n_n.lhsIdx_val_of_single rfl i c
/-- The right operand is read on the contracted row … -/
theorem rhs_fc_0 (i : S4000x64.Idx) (c : dot_S4000x128_S128x64_S4000x64_1_0_0_1_n_n.contr.Idx) :
    (dot_S4000x128_S128x64_S4000x64_1_0_0_1_n_n.rhsIdx i c 0).val = (c ⟨0, by decide⟩).val :=
  dot_S4000x128_S128x64_S4000x64_1_0_0_1_n_n.rhsIdx_val_of_single rfl i c
/-- … and on the result's column. -/
theorem rhs_fc_1 (i : S4000x64.Idx) (c : dot_S4000x128_S128x64_S4000x64_1_0_0_1_n_n.contr.Idx) :
    (dot_S4000x128_S128x64_S4000x64_1_0_0_1_n_n.rhsIdx i c 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `(p, q)` of the product into the zero accumulator is `∑ k, l[p,k] · r[k,q]`. -/
theorem fc_matmul_apply {φ₁ φ₂ : FTy} (l : FVec Ideal S4000x128 φ₁) (r : FVec Ideal S128x64 φ₂) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) := by
  refine (Ideal.matmul_constant_zero_apply dot_S4000x128_S128x64_S4000x64_1_0_0_1_n_n none l r (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_fc_0 _ _
    | ⟨1, _⟩ => exact (lhs_fc_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_fc_0 _ _).trans hk
    | ⟨1, _⟩ => exact rhs_fc_1 _ _)
  rw [el, er]

/-! ### A 4000×64 block times a 64×64 block -/

/-- The left operand is read on the result's row … -/
theorem lhs_sage_0 (i : S4000x64.Idx) (c : dot_S4000x64_S64x64_S4000x64_1_0_0_1_n_n.contr.Idx) :
    (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … and on the contracted column. -/
theorem lhs_sage_1 (i : S4000x64.Idx) (c : dot_S4000x64_S64x64_S4000x64_1_0_0_1_n_n.contr.Idx) :
    (dot_S4000x64_S64x64_S4000x64_1_0_0_1_n_n.lhsIdx i c 1).val = (c ⟨0, by decide⟩).val :=
  dot_S4000x64_S64x64_S4000x64_1_0_0_1_n_n.lhsIdx_val_of_single rfl i c
/-- The right operand is read on the contracted row … -/
theorem rhs_sage_0 (i : S4000x64.Idx) (c : dot_S4000x64_S64x64_S4000x64_1_0_0_1_n_n.contr.Idx) :
    (dot_S4000x64_S64x64_S4000x64_1_0_0_1_n_n.rhsIdx i c 0).val = (c ⟨0, by decide⟩).val :=
  dot_S4000x64_S64x64_S4000x64_1_0_0_1_n_n.rhsIdx_val_of_single rfl i c
/-- … and on the result's column. -/
theorem rhs_sage_1 (i : S4000x64.Idx) (c : dot_S4000x64_S64x64_S4000x64_1_0_0_1_n_n.contr.Idx) :
    (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry `(p, q)` of the product into the zero accumulator is `∑ k, l[p,k] · r[k,q]`. -/
theorem sage_matmul_apply {φ₁ φ₂ : FTy} (l : FVec Ideal S4000x64 φ₁) (r : FVec Ideal S64x64 φ₂) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  refine (Ideal.matmul_constant_zero_apply dot_S4000x64_S64x64_S4000x64_1_0_0_1_n_n none l r (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_sage_0 _ _
    | ⟨1, _⟩ => exact (lhs_sage_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_sage_0 _ _).trans hk
    | ⟨1, _⟩ => exact rhs_sage_1 _ _)
  rw [el, er]

/-! ### A 4000×64 block times a 64×1 column -/

/-- The left operand is read on the result's row … -/
theorem lhs_head_0 (i : S4000x1.Idx) (c : dot_S4000x64_S64x1_S4000x1_1_0_0_1_n_n.contr.Idx) :
    (dot_S4000x64_S64x1_S4000x1_1_0_0_1_n_n.lhsIdx i c 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
/-- … and on the contracted column. -/
theorem lhs_head_1 (i : S4000x1.Idx) (c : dot_S4000x64_S64x1_S4000x1_1_0_0_1_n_n.contr.Idx) :
    (dot_S4000x64_S64x1_S4000x1_1_0_0_1_n_n.lhsIdx i c 1).val = (c ⟨0, by decide⟩).val :=
  dot_S4000x64_S64x1_S4000x1_1_0_0_1_n_n.lhsIdx_val_of_single rfl i c
/-- The right operand is read on the contracted row … -/
theorem rhs_head_0 (i : S4000x1.Idx) (c : dot_S4000x64_S64x1_S4000x1_1_0_0_1_n_n.contr.Idx) :
    (dot_S4000x64_S64x1_S4000x1_1_0_0_1_n_n.rhsIdx i c 0).val = (c ⟨0, by decide⟩).val :=
  dot_S4000x64_S64x1_S4000x1_1_0_0_1_n_n.rhsIdx_val_of_single rfl i c
/-- … and on the result's column. -/
theorem rhs_head_1 (i : S4000x1.Idx) (c : dot_S4000x64_S64x1_S4000x1_1_0_0_1_n_n.contr.Idx) :
    (dot_S4000x64_S64x1_S4000x1_1_0_0_1_n_n.rhsIdx i c 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- Entry `(p, q)` of the product into the zero accumulator is `∑ k, l[p,k] · r[k,q]`. -/
theorem head_matmul_apply {φ₁ φ₂ : FTy} (l : FVec Ideal S4000x64 φ₁) (r : FVec Ideal S64x1 φ₂) (p : Fin 4000) (q : Fin 1) :
    matmul dot_S4000x64_S64x1_S4000x1_1_0_0_1_n_n none l r (constant (F := Ideal) S4000x1 .f32 0x00000000#32) (ix2 p q)
      = ∑ k : Fin 64, l (ix2 p k) * r (ix2 k q) := by
  refine (Ideal.matmul_constant_zero_apply dot_S4000x64_S64x1_S4000x1_1_0_0_1_n_n none l r (ix2 p q)).trans ?_
  rw [← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p q) ((contrEquiv1 dot_S4000x64_S64x1_S4000x1_1_0_0_1_n_n 64 rfl rfl).symm k) = ix2 p k := funext fun a => Fin.ext (by
    match a with
    | ⟨0, _⟩ => exact lhs_head_0 _ _
    | ⟨1, _⟩ => exact (lhs_head_1 _ _).trans hk)
  have er : dot_S4000x64_S64x1_S4000x1_1_0_0_1_n_n.rhsIdx (ix2 p q) ((contrEquiv1 dot_S4000x64_S64x1_S4000x1_1_0_0_1_n_n 64 rfl rfl).symm k) = ix2 k q := funext fun a => Fin.ext (by
    match a with
    | ⟨0, _⟩ => exact (rhs_head_0 _ _).trans hk
    | ⟨1, _⟩ => exact rhs_head_1 _ _)
  rw [el, er]

/-! ### The broadcast column of reciprocal degrees -/

/-- A `[a, 1]` column broadcast to `[a, b]` reads, at `(p, c)`, the column's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The input projection's block: entry `(p, q)` is the rectified `∑ k, x[p,k] · w[k,q] + b[0,q]`. -/
theorem fc_block_apply (x : Vec Ideal S4000x128 .f32) (w : Vec Ideal S128x64 .f32) (b : Vec Ideal S1x64 .f32)
    (p : Fin 4000) (q : Fin 64) :
    k0_pay1 (F := Ideal) x w b (ix2 p q)
      = max ((∑ k : Fin 128, x (ix2 p k) * w (ix2 k q)) + b (ix2 0 q)) zero32 := by
  unfold k0_pay1
  simp only [truncf_apply, maximumf_apply, addf_apply, broadcast_apply]
  rw [fc_matmul_apply, shapeCast_self, shapeCast_self, broadcastTo_1b_ab_apply]
  rfl

/-- One graph layer's block before the rectifier, as a function of the blocks: the shared middle of the two
    graph kernels. -/
def sageBlockAt (d : Vec Ideal S4000x1 .f32) (a : Vec Ideal S4000x64 .f32) (h : Vec Ideal S4000x64 .bf16)
    (wl wr : Vec Ideal S64x64 .f32) (bl : Vec Ideal S1x64 .f32) (p : Fin 4000) (q : Fin 64) : EReal :=
  ((∑ k : Fin 64, (a (ix2 p k) * d (ix2 p 0)) * wl (ix2 k q)) + bl (ix2 0 q)) + ∑ k : Fin 64, h (ix2 p k) * wr (ix2 k q)

/-- The first graph layer's block: entry `(p, q)` is `sageBlockAt`, rectified. -/
theorem sage1_block_apply (d : Vec Ideal S4000x1 .f32) (a : Vec Ideal S4000x64 .f32) (h : Vec Ideal S4000x64 .bf16)
    (wl wr : Vec Ideal S64x64 .f32) (bl : Vec Ideal S1x64 .f32) (p : Fin 4000) (q : Fin 64) :
    k1_pay1 (F := Ideal) d a h wl wr bl (ix2 p q) = max (sageBlockAt d a h wl wr bl p q) zero32 := by
  unfold k1_pay1 sageBlockAt
  simp only [truncf_apply, maximumf_apply, addf_apply, broadcast_apply]
  rw [sage_matmul_apply, sage_matmul_apply, broadcastTo_1b_ab_apply]
  simp only [shapeCast_self, truncf_apply, mulf_apply, broadcastTo_a1_ab_apply]
  rfl

/-- The second graph layer with the head: entry `(p, 0)` is `∑ j, sageBlockAt … p j · hw[j,0] + hb[0,0]`. -/
theorem sage2head_block_apply (d : Vec Ideal S4000x1 .f32) (a : Vec Ideal S4000x64 .f32) (h : Vec Ideal S4000x64 .bf16)
    (wl wr : Vec Ideal S64x64 .f32) (bl : Vec Ideal S1x64 .f32) (hw : Vec Ideal S64x1 .f32) (hb : Vec Ideal S1x1 .f32)
    (p : Fin 4000) :
    k2_pay1 (F := Ideal) d a h wl wr bl hw hb (ix2 p 0)
      = (∑ j : Fin 64, sageBlockAt d a h wl wr bl p j * hw (ix2 j 0)) + hb (ix2 0 0) := by
  unfold k2_pay1
  simp only [addf_apply]
  rw [head_matmul_apply, broadcastTo_1b_ab_apply]
  refine congrArg₂ (· + ·) (Finset.sum_congr rfl fun j _ => ?_) ?_
  · unfold sageBlockAt
    simp only [truncf_apply, addf_apply]
    rw [sage_matmul_apply, sage_matmul_apply, broadcastTo_1b_ab_apply]
    simp only [shapeCast_self, truncf_apply, mulf_apply, broadcastTo_a1_ab_apply]
  · rw [shapeCast_self]

end Cert.KernelIdeal.Dense

end
-- ==== Proof.Region0.lean ====
/-
  The input projection's region: its twenty-five row blocks of 4000 rows tile the result array, and block `t` of the result is the rectified projection of block `t` of the input rows, so the array ends holding `fcRelu` of the three arrays the region reads.
-/
import proofs.«419804_j55628416418294_3_alg».proof.Proof.Gen.KernelIdeal.Frame
import proofs.«419804_j55628416418294_3_alg».proof.Proof.Dense
import proofs.«419804_j55628416418294_3_alg».proof.Proof.Payload
import Idealize.ShloMosaic.Lib.Pipeline.Value
import Idealize.ShloMosaic.Lib.ValueIdx

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

namespace InputProjection

/-- The block offsets `![0, 0]` are the zero offsets. -/
theorem zero_offsets : (![0, 0] : Fin 2 → Nat) = fun _ => 0 := funext fun a => by fin_cases a <;> rfl

/-- The index maps over the grid: the row windows (the input rows and the result) sit at block `(t, 0)` at point `t`,
    the weight and the bias windows at block `(0, 0)` at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has twenty-five points. -/
theorem point_lt (t : Fin cfg0.N) : t.val < 25 :=
  Nat.lt_of_lt_of_eq t.isLt (show cfg0.N = 25 from N_0)

/-- Entry `(p, k)` of the input rows' block at point `t` is entry `(4000 t + p, k)` of the input array. -/
theorem rows_block (c : Dev nD) (t : Fin cfg0.N) (p : Fin 4000) (k : Fin 128) (r : Fin 100000)
    (hr : r.val = t.val * 4000 + p.val) :
    (iblk0 V c 0 t : Vec Ideal S4000x128 .f32) (ix2 p k)
      = (V c main_arg0 : S100000x128.Idx → Elt Ideal .f32) (ix2 r k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- The weight window's block at any point is the whole weight array. -/
theorem weight_block (c : Dev nD) (t : Fin cfg0.N) (k : Fin 128) (q : Fin 64) :
    (iblk0 V c 1 t : Vec Ideal S128x64 .f32) (ix2 k q)
      = (V c main_v4 : S128x64.Idx → Elt Ideal .f32) (ix2 k q) := by
  obtain ⟨-, -, e0, e1, -⟩ := block_indices t
  unfold iblk0
  rw [View.read_apply]
  show V c main_v4 _ = V c main_v4 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- The bias window's block at any point is the whole bias row. -/
theorem bias_block (c : Dev nD) (t : Fin cfg0.N) (z : Fin 1) (q : Fin 64) :
    (iblk0 V c 2 t : Vec Ideal S1x64 .f32) (ix2 z q)
      = (V c main_v5 : S1x64.Idx → Elt Ideal .f32) (ix2 z q) := by
  obtain ⟨-, -, -, -, e0, e1, -⟩ := block_indices t
  unfold iblk0
  rw [View.read_apply]
  show V c main_v5 _ = V c main_v5 _
  congr 1
  funext a
  apply Fin.ext
  match a with
  | ⟨0, _⟩ => show win0_2.index t (0 : Fin 2) * 1 + 1 * z.val = z.val; omega
  | ⟨1, _⟩ => show win0_2.index t (1 : Fin 2) * 64 + 1 * q.val = q.val; omega

/-- The specification at the array index that entry `(p, q)` of the result's block at point `t` lands on:
    row `4000 t + p`, column `q`. -/
theorem fcRelu_at_block (x : FVec Ideal S100000x128 .f32) (wT : FVec Ideal S128x64 .f32) (b : FVec Ideal S1x64 .f32)
    (t : Fin cfg0.N) (p : Fin 4000) (q : Fin 64) (r : Fin 100000) (hr : r.val = t.val * 4000 + p.val) :
    fcRelu x wT b (((cfg0.win 3).blk t).view.emb (ix2 p q)) = fcReluAt x wT b r q := by
  obtain ⟨-, -, -, -, -, -, e0, e1⟩ := block_indices t
  unfold fcRelu
  congr 1 <;> apply Fin.ext
  · show win0_3.index t (0 : Fin 2) * 4000 + 1 * p.val = r.val; omega
  · show win0_3.index t (1 : Fin 2) * 64 + 1 * q.val = q.val; omega

/-- What point `t` writes back is block `t` of `fcRelu` of the arrays the region found. -/
theorem written_back (c : Dev nD) (t : Fin cfg0.N) :
    (dat0 (F := Ideal) V c).flushed 3 t
      = ((cfg0.win 3).blk t).view.read (Elt Ideal) (fcRelu (V c main_arg0) (V c main_v4) (V c main_v5)) := by
  show (cfg0.win 3).cut (grid0.coords t) ((dat0 (F := Ideal) V c).after 3 t) = _
  rw [after0_3]
  unfold out0_3
  rw [View.canon_unit_zero zero_offsets]
  simp only [View.ld_unit_zero (S := S4000x128) zero_offsets, View.ld_unit_zero (S := S128x64) zero_offsets,
    View.ld_unit_zero (S := S1x64) zero_offsets]
  funext j
  obtain ⟨p, q, rfl⟩ : ∃ (p : Fin 4000) (q : Fin 64), j = ix2 p q :=
    ⟨j 0, j 1, eq_ix2 (n0 := 4000) (n1 := 64) j⟩
  obtain ⟨r, hr⟩ : ∃ r : Fin 100000, r.val = t.val * 4000 + p.val :=
    ⟨⟨t.val * 4000 + p.val, by have := point_lt t; omega⟩, rfl⟩
  rw [View.read_apply]
  show k0_pay1 (F := Ideal) (iblk0 V c 0 t) (iblk0 V c 1 t) (iblk0 V c 2 t) (ix2 p q)
    = fcRelu (V c main_arg0) (V c main_v4) (V c main_v5) (((cfg0.win 3).blk t).view.emb (ix2 p q))
  rw [fcRelu_at_block _ _ _ t p q r hr]
  refine (fc_block_apply (iblk0 V c 0 t) (iblk0 V c 1 t) (iblk0 V c 2 t) p q).trans ?_
  unfold fcReluAt
  simp only [rows_block V c t p _ r hr, weight_block V c t, bias_block V c t]

/-- An index of the result array lies in point `t`'s block exactly when each of its coordinates lies in the block's
    range on that axis. -/
theorem mem_block (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v6).slice (win0_3.rect t)).set ↔ _
  rw [View.set_slice_whole, Rect.mem_set_unit]
  exact Iff.rfl

/-- The twenty-five row blocks tile the result array: row `r` lies in the block of point `r / 4000`. -/
theorem covered (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ : ∃ t : Fin cfg0.N, t.val = (i 0).val / 4000 :=
    ⟨⟨(i 0).val / 4000, Nat.lt_of_lt_of_eq (by omega : (i 0).val / 4000 < 25) (show cfg0.N = 25 from N_0).symm⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

end InputProjection

/-- After the region's last write-back the result array holds `fcRelu` of the arrays the region found. -/
theorem region0_array (c : Dev nD) :
    (dat0 (F := Ideal) V c).arrAt 3 cfg0.N = fcRelu (V c main_arg0) (V c main_v4) (V c main_v5) := by
  exact (dat0 (F := Ideal) V c).arrAt_eq_of_cover 3 (fcRelu (V c main_arg0) (V c main_v4) (V c main_v5))
    (fun t _ => InputProjection.written_back V c t) InputProjection.covered

end Cert.KernelIdeal.Dense

end
-- ==== Proof.Region1.lean ====
/-
  The first graph layer's region: its twenty-five row blocks of 4000 rows tile the result array, and block `t` of the result is the rectified layer of block `t` of the neighbour sums, the reciprocal degrees and the node features, so the array ends holding `sage1` of the six arrays the region reads.
-/
import proofs.«419804_j55628416418294_3_alg».proof.Proof.Gen.KernelIdeal.Frame
import proofs.«419804_j55628416418294_3_alg».proof.Proof.Dense
import proofs.«419804_j55628416418294_3_alg».proof.Proof.Payload
import Idealize.ShloMosaic.Lib.Pipeline.Value
import Idealize.ShloMosaic.Lib.ValueIdx

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

namespace FirstLayer

/-- The zero offsets of a whole-buffer rectangle are the constant zero function. -/
theorem zero_off : (![0, 0] : Fin 2 → Nat) = fun _ => 0 :=
  funext fun a => by match a with | ⟨0, _⟩ => rfl | ⟨1, _⟩ => rfl

/-- Where each window's block sits at grid point `t`: the three row windows and the result window are at row block
    `t`, column block 0; the two weight windows and the bias window stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `(p, k)` of the neighbour sums' block at point `t` is entry `(4000 t + p, k)` of the array. -/
theorem nbr_block (c : Dev nD) (t : Fin cfg1.N) (p : Fin 4000) (k : Fin 64) (P : Fin 100000)
    (hP : P.val = t.val * 4000 + p.val) :
    (iblk1 V c 0 t : Vec Ideal S4000x64 .f32) (ix2 p k)
      = (V c main_v17 : S100000x64.Idx → Elt Ideal .f32) (ix2 P k) := by
  obtain ⟨e0, e1, -⟩ := index_facts t
  unfold iblk1
  rw [View.read_apply]
  show V c main_v17 _ = V c main_v17 _
  congr 1
  funext a
  apply Fin.ext
  match a with
  | ⟨0, _⟩ => show win1_0.index t (0 : Fin 2) * 4000 + 1 * p.val = P.val; rw [e0, hP]; omega
  | ⟨1, _⟩ => show win1_0.index t (1 : Fin 2) * 64 + 1 * k.val = k.val; rw [e1]; omega

/-- Entry `(p, k)` of the reciprocal degrees' block at point `t` is entry `(4000 t + p, k)` of the column. -/
theorem deg_block (c : Dev nD) (t : Fin cfg1.N) (p : Fin 4000) (k : Fin 1) (P : Fin 100000)
    (hP : P.val = t.val * 4000 + p.val) :
    (iblk1 V c 1 t : Vec Ideal S4000x1 .f32) (ix2 p k)
      = (V c main_v26 : S100000x1.Idx → Elt Ideal .f32) (ix2 P k) := by
  obtain ⟨-, -, e0, e1, -⟩ := index_facts t
  unfold iblk1
  rw [View.read_apply]
  show V c main_v26 _ = V c main_v26 _
  congr 1
  funext a
  apply Fin.ext
  match a with
  | ⟨0, _⟩ => show win1_1.index t (0 : Fin 2) * 4000 + 1 * p.val = P.val; rw [e0, hP]; omega
  | ⟨1, _⟩ => show win1_1.index t (1 : Fin 2) * 1 + 1 * k.val = k.val; rw [e1]; omega

/-- Entry `(p, k)` of the features' block at point `t` is entry `(4000 t + p, k)` of the array. -/
theorem feat_block (c : Dev nD) (t : Fin cfg1.N) (p : Fin 4000) (k : Fin 64) (P : Fin 100000)
    (hP : P.val = t.val * 4000 + p.val) :
    (iblk1 V c 2 t : Vec Ideal S4000x64 .bf16) (ix2 p k)
      = (V c main_v6 : S100000x64.Idx → Elt Ideal .bf16) (ix2 P k) := by
  obtain ⟨-, -, -, -, e0, e1, -⟩ := index_facts t
  unfold iblk1
  rw [View.read_apply]
  show V c main_v6 _ = V c main_v6 _
  congr 1
  funext a
  apply Fin.ext
  match a with
  | ⟨0, _⟩ => show win1_2.index t (0 : Fin 2) * 4000 + 1 * p.val = P.val; rw [e0, hP]; omega
  | ⟨1, _⟩ => show win1_2.index t (1 : Fin 2) * 64 + 1 * k.val = k.val; rw [e1]; omega

/-- The neighbour weights' one block is the whole array, at every point. -/
theorem nbrw_block (c : Dev nD) (t : Fin cfg1.N) (k : Fin 64) (q : Fin 64) :
    (iblk1 V c 3 t : Vec Ideal S64x64 .f32) (ix2 k q)
      = (V c main_v27 : S64x64.Idx → Elt Ideal .f32) (ix2 k q) := by
  obtain ⟨-, -, -, -, -, -, e0, e1, -⟩ := index_facts t
  unfold iblk1
  rw [View.read_apply]
  show V c main_v27 _ = V c main_v27 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias row's one block is the whole array, at every point. -/
theorem bias_block (c : Dev nD) (t : Fin cfg1.N) (k : Fin 1) (q : Fin 64) :
    (iblk1 V c 4 t : Vec Ideal S1x64 .f32) (ix2 k q)
      = (V c main_v29 : S1x64.Idx → Elt Ideal .f32) (ix2 k q) := by
  obtain ⟨-, -, -, -, -, -, -, -, e0, e1, -⟩ := index_facts t
  unfold iblk1
  rw [View.read_apply]
  show V c main_v29 _ = V c main_v29 _
  congr 1
  funext a
  apply Fin.ext
  match a with
  | ⟨0, _⟩ => show win1_4.index t (0 : Fin 2) * 1 + 1 * k.val = k.val; rw [e0]; omega
  | ⟨1, _⟩ => show win1_4.index t (1 : Fin 2) * 64 + 1 * q.val = q.val; rw [e1]; omega

/-- The root weights' one block is the whole array, at every point. -/
theorem rootw_block (c : Dev nD) (t : Fin cfg1.N) (k : Fin 64) (q : Fin 64) :
    (iblk1 V c 5 t : Vec Ideal S64x64 .f32) (ix2 k q)
      = (V c main_v28 : S64x64.Idx → Elt Ideal .f32) (ix2 k q) := by
  obtain ⟨-, -, -, -, -, -, -, -, -, -, e0, e1, -⟩ := index_facts t
  unfold iblk1
  rw [View.read_apply]
  show V c main_v28 _ = V c main_v28 _
  congr 1
  funext a
  apply Fin.ext
  match a with
  | ⟨0, _⟩ => show win1_5.index t (0 : Fin 2) * 64 + 1 * k.val = k.val; rw [e0]; omega
  | ⟨1, _⟩ => show win1_5.index t (1 : Fin 2) * 64 + 1 * q.val = q.val; rw [e1]; omega

/-- One entry of a block of the layer is the entry of the whole layer at the array's row, when the blocks' entries it
    reads are the arrays' entries at that row. -/
theorem sageBlockAt_eq_sageAt (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (db : Vec Ideal S4000x1 .f32) (ab : Vec Ideal S4000x64 .f32) (hb : Vec Ideal S4000x64 .bf16)
    (wlb wrb : Vec Ideal S64x64 .f32) (blb : Vec Ideal S1x64 .f32) (p : Fin 4000) (q : Fin 64) (P : Fin 100000)
    (ha : ∀ k : Fin 64, ab (ix2 p k) = a (ix2 P k)) (hd : db (ix2 p 0) = d (ix2 P 0))
    (hh : ∀ k : Fin 64, hb (ix2 p k) = h (ix2 P k)) (hwl : ∀ k : Fin 64, wlb (ix2 k q) = wlT (ix2 k q))
    (hbl : blb (ix2 0 q) = bl (ix2 0 q)) (hwr : ∀ k : Fin 64, wrb (ix2 k q) = wrT (ix2 k q)) :
    sageBlockAt db ab hb wlb wrb blb p q = sageAt a d h wlT bl wrT P q := by
  unfold sageBlockAt sageAt
  simp only [ha, hd, hh, hwl, hbl, hwr]

/-- The rectified layer at an index whose coordinates are `P` and `q`. -/
theorem sage1_apply (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (i : S100000x64.Idx) (P : Fin 100000) (q : Fin 64) (h0 : (i 0).val = P.val) (h1 : (i 1).val = q.val) :
    sage1 a d h wlT bl wrT i = max (sageAt a d h wlT bl wrT P q) zero32 := by
  have eP : (⟨(i 0).val, idx2_lt0 i⟩ : Fin 100000) = P := Fin.ext h0
  have eq : (⟨(i 1).val, idx2_lt1 i⟩ : Fin 64) = q := Fin.ext h1
  unfold sage1
  rw [eP, eq]

/-- What point `t` writes back is block `t` of `sage1` of the arrays the region found. -/
theorem flushed_eq (c : Dev nD) (t : Fin cfg1.N) :
    (dat1 (F := Ideal) V c).flushed 6 t = ((cfg1.win 6).blk t).view.read (Elt Ideal)
      (sage1 (V c main_v17) (V c main_v26) (V c main_v6) (V c main_v27) (V c main_v29) (V c main_v28)) := by
  show (cfg1.win 6).cut (grid1.coords t) ((dat1 V c).after 6 t) = _
  rw [after1_6]
  unfold out1_6
  rw [View.canon_unit_zero zero_off]
  simp only [View.ld_unit_zero (S := S4000x1) zero_off, View.ld_unit_zero (S := S4000x64) zero_off,
    View.ld_unit_zero (S := S64x64) zero_off, View.ld_unit_zero (S := S1x64) zero_off]
  obtain ⟨-, -, -, -, -, -, -, -, -, -, -, -, e0, e1⟩ := index_facts t
  have hrow : ∀ p : Fin 4000, t.val * 4000 + p.val < 100000 := fun p => by
    have ht : t.val < 25 := Nat.lt_of_lt_of_eq t.isLt N_1
    omega
  funext j
  obtain ⟨p, q, rfl⟩ : ∃ (p : Fin 4000) (q : Fin 64), j = ix2 p q := ⟨j 0, j 1, eq_ix2 j⟩
  show k1_pay1 (F := Ideal) (iblk1 V c 1 t) (iblk1 V c 0 t) (iblk1 V c 2 t) (iblk1 V c 3 t) (iblk1 V c 5 t) (iblk1 V c 4 t) (ix2 p q)
    = sage1 (V c main_v17) (V c main_v26) (V c main_v6) (V c main_v27) (V c main_v29) (V c main_v28)
        (((cfg1.win 6).blk t).view.emb (ix2 p q))
  refine (sage1_block_apply (iblk1 V c 1 t) (iblk1 V c 0 t) (iblk1 V c 2 t) (iblk1 V c 3 t) (iblk1 V c 5 t) (iblk1 V c 4 t) p q).trans ?_
  refine Eq.trans ?_ (sage1_apply (V c main_v17) (V c main_v26) (V c main_v6) (V c main_v27) (V c main_v29) (V c main_v28)
    (((cfg1.win 6).blk t).view.emb (ix2 p q)) ⟨t.val * 4000 + p.val, hrow p⟩ q ?_ ?_).symm
  · refine congrArg (fun x => max x zero32) ?_
    exact sageBlockAt_eq_sageAt (V c main_v17) (V c main_v26) (V c main_v6) (V c main_v27) (V c main_v29) (V c main_v28)
      (iblk1 V c 1 t) (iblk1 V c 0 t) (iblk1 V c 2 t) (iblk1 V c 3 t) (iblk1 V c 5 t) (iblk1 V c 4 t) p q
      ⟨t.val * 4000 + p.val, hrow p⟩
      (fun k => nbr_block V c t p k _ rfl) (deg_block V c t p 0 _ rfl) (fun k => feat_block V c t p k _ rfl)
      (fun k => nbrw_block V c t k q) (bias_block V c t 0 q) (fun k => rootw_block V c t k q)
  · show win1_6.index t (0 : Fin 2) * 4000 + 1 * p.val = t.val * 4000 + p.val
    rw [e0]; omega
  · show win1_6.index t (1 : Fin 2) * 64 + 1 * q.val = q.val
    rw [e1]; omega

/-- An index of the result array is in point `t`'s block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v30).slice (win1_6.rect t)).set ↔ _
  rw [View.set_slice_whole, Rect.mem_set_unit]
  exact Iff.rfl

/-- Row `r` of the result array lies in the block of point `r / 4000`, so the twenty-five blocks cover the array. -/
theorem covered (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  obtain ⟨t, ht⟩ : ∃ t : Fin cfg1.N, t.val = (i 0).val / 4000 :=
    ⟨⟨(i 0).val / 4000, Nat.lt_of_lt_of_eq (by omega : (i 0).val / 4000 < 25) N_1.symm⟩, rfl⟩
  obtain ⟨-, -, -, -, -, -, -, -, -, -, -, -, e0, e1⟩ := index_facts t
  refine ⟨t, flush1_6 t, ?_⟩
  rw [mem_blk]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 64 ≤ (i 1).val ∧ (i 1).val < win1_6.index t (1 : Fin 2) * 64 + 64
    rw [e1]; omega

end FirstLayer

/-- After the region's last write-back the result array holds `sage1` of the arrays the region found. -/
theorem region1_array (c : Dev nD) :
    (dat1 (F := Ideal) V c).arrAt 6 cfg1.N
      = sage1 (V c main_v17) (V c main_v26) (V c main_v6) (V c main_v27) (V c main_v29) (V c main_v28) := by
  exact (dat1 (F := Ideal) V c).arrAt_eq_of_cover 6
    (sage1 (V c main_v17) (V c main_v26) (V c main_v6) (V c main_v27) (V c main_v29) (V c main_v28))
    (fun t _ => FirstLayer.flushed_eq V c t) FirstLayer.covered

end Cert.KernelIdeal.Dense

end
-- ==== Proof.Region2.lean ====
/-
  The second graph layer's region with the head: its twenty-five row blocks of 4000 rows tile the one-column result array, and block `t` of the result is the layer of block `t` of the neighbour sums, the reciprocal degrees and the node features contracted with the head's weights, so the array ends holding `sage2head` of the eight arrays the region reads.
-/
import proofs.«419804_j55628416418294_3_alg».proof.Proof.Gen.KernelIdeal.Frame
import proofs.«419804_j55628416418294_3_alg».proof.Proof.Dense
import proofs.«419804_j55628416418294_3_alg».proof.Proof.Payload
import Idealize.ShloMosaic.Lib.Pipeline.Value
import Idealize.ShloMosaic.Lib.ValueIdx

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

namespace SecondLayer

/-- A whole-buffer access starts at offset zero on both axes. -/
theorem offsets_zero2 : (![0, 0] : Fin 2 → Nat) = fun _ => 0 :=
  funext fun a => by match a with | ⟨0, _⟩ => rfl | ⟨1, _⟩ => rfl

/-- The block indices over the grid: the three row windows and the result window sit at row block `t`, column
    block 0; the weight, bias and head windows sit at block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row `p` of the block of point `t` is row `4000 t + p` of a 100000-row array. -/
def row2 (t : Fin cfg2.N) (p : Fin 4000) : Fin 100000 :=
  ⟨t.val * 4000 + p.val, by have h := t.isLt; have hN : cfg2.N = 25 := N_2; omega⟩

/-- Point `t`'s block of the neighbour sums is rows `4000 t …` of the array. -/
theorem nbr_block2 (c : Dev nD) (t : Fin cfg2.N) (p : Fin 4000) (k : Fin 64) :
    (iblk2 V c 0 t : Vec Ideal S4000x64 .f32) (ix2 p k)
      = (V c main_v41 : S100000x64.Idx → EReal) (ix2 (row2 t p) k) := by
  obtain ⟨e0, e1, -⟩ := block_index2 t
  unfold iblk2
  rw [View.read_apply]
  show V c main_v41 _ = V c main_v41 _
  congr 1
  funext a
  apply Fin.ext
  match a with
  | ⟨0, _⟩ => show win2_0.index t (0 : Fin 2) * 4000 + 1 * p.val = t.val * 4000 + p.val; rw [e0]; omega
  | ⟨1, _⟩ => show win2_0.index t (1 : Fin 2) * 64 + 1 * k.val = k.val; rw [e1]; omega

/-- Point `t`'s block of the reciprocal degrees is rows `4000 t …` of the column. -/
theorem deg_block2 (c : Dev nD) (t : Fin cfg2.N) (p : Fin 4000) (k : Fin 1) :
    (iblk2 V c 1 t : Vec Ideal S4000x1 .f32) (ix2 p k)
      = (V c main_v26 : S100000x1.Idx → EReal) (ix2 (row2 t p) k) := by
  obtain ⟨-, -, e0, e1, -⟩ := block_index2 t
  unfold iblk2
  rw [View.read_apply]
  show V c main_v26 _ = V c main_v26 _
  congr 1
  funext a
  apply Fin.ext
  match a with
  | ⟨0, _⟩ => show win2_1.index t (0 : Fin 2) * 4000 + 1 * p.val = t.val * 4000 + p.val; rw [e0]; omega
  | ⟨1, _⟩ => show win2_1.index t (1 : Fin 2) * 1 + 1 * k.val = k.val; rw [e1]; omega

/-- Point `t`'s block of the node features is rows `4000 t …` of the array. -/
theorem feat_block2 (c : Dev nD) (t : Fin cfg2.N) (p : Fin 4000) (k : Fin 64) :
    (iblk2 V c 2 t : Vec Ideal S4000x64 .bf16) (ix2 p k)
      = (V c main_v30 : S100000x64.Idx → EReal) (ix2 (row2 t p) k) := by
  obtain ⟨-, -, -, -, e0, e1, -⟩ := block_index2 t
  unfold iblk2
  rw [View.read_apply]
  show V c main_v30 _ = V c main_v30 _
  congr 1
  funext a
  apply Fin.ext
  match a with
  | ⟨0, _⟩ => show win2_2.index t (0 : Fin 2) * 4000 + 1 * p.val = t.val * 4000 + p.val; rw [e0]; omega
  | ⟨1, _⟩ => show win2_2.index t (1 : Fin 2) * 64 + 1 * k.val = k.val; rw [e1]; omega

/-- Every point's block of the neighbour weights is the whole array. -/
theorem wl_block2 (c : Dev nD) (t : Fin cfg2.N) (k q : Fin 64) :
    (iblk2 V c 3 t : Vec Ideal S64x64 .f32) (ix2 k q) = (V c main_v42 : S64x64.Idx → EReal) (ix2 k q) := by
  obtain ⟨-, -, -, -, -, -, e0, e1, -⟩ := block_index2 t
  unfold iblk2
  rw [View.read_apply]
  show V c main_v42 _ = V c main_v42 _
  congr 1
  funext a
  apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- Every point's block of the layer's bias is the whole row. -/
theorem bl_block2 (c : Dev nD) (t : Fin cfg2.N) (k : Fin 1) (q : Fin 64) :
    (iblk2 V c 4 t : Vec Ideal S1x64 .f32) (ix2 k q) = (V c main_v45 : S1x64.Idx → EReal) (ix2 k q) := by
  obtain ⟨-, -, -, -, -, -, -, -, e0, e1, -⟩ := block_index2 t
  unfold iblk2
  rw [View.read_apply]
  show V c main_v45 _ = V c main_v45 _
  congr 1
  funext a
  apply Fin.ext
  match a with
  | ⟨0, _⟩ => show win2_4.index t (0 : Fin 2) * 1 + 1 * k.val = k.val; rw [e0]; omega
  | ⟨1, _⟩ => show win2_4.index t (1 : Fin 2) * 64 + 1 * q.val = q.val; rw [e1]; omega

/-- Every point's block of the root weights is the whole array. -/
theorem wr_block2 (c : Dev nD) (t : Fin cfg2.N) (k q : Fin 64) :
    (iblk2 V c 5 t : Vec Ideal S64x64 .f32) (ix2 k q) = (V c main_v43 : S64x64.Idx → EReal) (ix2 k q) := by
  obtain ⟨-, -, -, -, -, -, -, -, -, -, e0, e1, -⟩ := block_index2 t
  unfold iblk2
  rw [View.read_apply]
  show V c main_v43 _ = V c main_v43 _
  congr 1
  funext a
  apply Fin.ext
  match a with
  | ⟨0, _⟩ => show win2_5.index t (0 : Fin 2) * 64 + 1 * k.val = k.val; rw [e0]; omega
  | ⟨1, _⟩ => show win2_5.index t (1 : Fin 2) * 64 + 1 * q.val = q.val; rw [e1]; omega

/-- Every point's block of the head's weights is the whole column. -/
theorem hw_block2 (c : Dev nD) (t : Fin cfg2.N) (k : Fin 64) (q : Fin 1) :
    (iblk2 V c 6 t : Vec Ideal S64x1 .f32) (ix2 k q) = (V c main_v44 : S64x1.Idx → EReal) (ix2 k q) := by
  obtain ⟨-, -, -, -, -, -, -, -, -, -, -, -, e0, e1, -⟩ := block_index2 t
  unfold iblk2
  rw [View.read_apply]
  show V c main_v44 _ = V c main_v44 _
  congr 1
  funext a
  apply Fin.ext
  match a with
  | ⟨0, _⟩ => show win2_6.index t (0 : Fin 2) * 64 + 1 * k.val = k.val; rw [e0]; omega
  | ⟨1, _⟩ => show win2_6.index t (1 : Fin 2) * 1 + 1 * q.val = q.val; rw [e1]; omega

/-- Every point's block of the head's bias is its one entry. -/
theorem hb_block2 (c : Dev nD) (t : Fin cfg2.N) (k q : Fin 1) :
    (iblk2 V c 7 t : Vec Ideal S1x1 .f32) (ix2 k q) = (V c main_v46 : S1x1.Idx → EReal) (ix2 k q) := by
  obtain ⟨-, -, -, -, -, -, -, -, -, -, -, -, -, -, e0, e1, -⟩ := block_index2 t
  unfold iblk2
  rw [View.read_apply]
  show V c main_v46 _ = V c main_v46 _
  congr 1
  funext a
  apply Fin.ext
  match a with
  | ⟨0, _⟩ => show win2_7.index t (0 : Fin 2) * 1 + 1 * k.val = k.val; rw [e0]; omega
  | ⟨1, _⟩ => show win2_7.index t (1 : Fin 2) * 1 + 1 * q.val = q.val; rw [e1]; omega

/-- When each block entry is the matching array entry (row `p` of a row block is row `r` of its array, the weight and
    bias blocks are their arrays), the block's layer entry is the array's. -/
theorem sageBlockAt_eq_sageAt (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (xd : Vec Ideal S4000x1 .f32) (xa : Vec Ideal S4000x64 .f32) (xh : Vec Ideal S4000x64 .bf16)
    (xwl xwr : Vec Ideal S64x64 .f32) (xbl : Vec Ideal S1x64 .f32) (r : Fin 100000) (p : Fin 4000)
    (ha : ∀ k : Fin 64, xa (ix2 p k) = a (ix2 r k)) (hd : xd (ix2 p 0) = d (ix2 r 0))
    (hh : ∀ k : Fin 64, xh (ix2 p k) = h (ix2 r k))
    (hwl : ∀ k q : Fin 64, xwl (ix2 k q) = wlT (ix2 k q)) (hwr : ∀ k q : Fin 64, xwr (ix2 k q) = wrT (ix2 k q))
    (hbl : ∀ q : Fin 64, xbl (ix2 0 q) = bl (ix2 0 q)) (q : Fin 64) :
    sageBlockAt xd xa xh xwl xwr xbl p q = sageAt a d h wlT bl wrT r q := by
  unfold sageBlockAt sageAt
  simp only [ha, hd, hh, hwl, hwr, hbl]

/-- With the head's blocks their whole arrays too, the block's head entry at row `p` is `sage2head` at row `r`. -/
theorem headBlock_eq_sage2head (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (hwT : FVec Ideal S64x1 .f32) (hb : FVec Ideal S1x1 .f32)
    (xd : Vec Ideal S4000x1 .f32) (xa : Vec Ideal S4000x64 .f32) (xh : Vec Ideal S4000x64 .bf16)
    (xwl xwr : Vec Ideal S64x64 .f32) (xbl : Vec Ideal S1x64 .f32) (xhw : Vec Ideal S64x1 .f32) (xhb : Vec Ideal S1x1 .f32)
    (r : Fin 100000) (p : Fin 4000)
    (ha : ∀ k : Fin 64, xa (ix2 p k) = a (ix2 r k)) (hd : xd (ix2 p 0) = d (ix2 r 0))
    (hh : ∀ k : Fin 64, xh (ix2 p k) = h (ix2 r k))
    (hwl : ∀ k q : Fin 64, xwl (ix2 k q) = wlT (ix2 k q)) (hwr : ∀ k q : Fin 64, xwr (ix2 k q) = wrT (ix2 k q))
    (hbl : ∀ q : Fin 64, xbl (ix2 0 q) = bl (ix2 0 q))
    (hhw : ∀ j : Fin 64, xhw (ix2 j 0) = hwT (ix2 j 0)) (hhb : xhb (ix2 0 0) = hb (ix2 0 0)) :
    (∑ j : Fin 64, sageBlockAt xd xa xh xwl xwr xbl p j * xhw (ix2 j 0)) + xhb (ix2 0 0)
      = sage2head a d h wlT bl wrT hwT hb (ix2 r 0) := by
  show _ = (∑ j : Fin 64, sageAt a d h wlT bl wrT r j * hwT (ix2 j 0)) + hb (ix2 0 0)
  rw [hhb]
  refine congrArg (· + hb (ix2 0 0)) (Finset.sum_congr rfl fun j _ => ?_)
  rw [hhw j, sageBlockAt_eq_sageAt a d h wlT bl wrT xd xa xh xwl xwr xbl r p ha hd hh hwl hwr hbl j]

/-- What point `t` writes back is block `t` of `sage2head` of the arrays the region found. -/
theorem flushed2_eq (c : Dev nD) (t : Fin cfg2.N) :
    (dat2 (F := Ideal) V c).flushed 8 t
      = ((cfg2.win 8).blk t).view.read (Elt Ideal)
          (sage2head (V c main_v41) (V c main_v26) (V c main_v30) (V c main_v42) (V c main_v45) (V c main_v43) (V c main_v44) (V c main_v46)) := by
  show (cfg2.win 8).cut (grid2.coords t) ((dat2 (F := Ideal) V c).after 8 t) = _
  rw [after2_8]
  unfold out2_8
  rw [View.canon_unit_zero offsets_zero2]
  simp only [View.ld_unit_zero (S := S4000x64) offsets_zero2, View.ld_unit_zero (S := S4000x1) offsets_zero2,
    View.ld_unit_zero (S := S64x64) offsets_zero2, View.ld_unit_zero (S := S1x64) offsets_zero2,
    View.ld_unit_zero (S := S64x1) offsets_zero2, View.ld_unit_zero (S := S1x1) offsets_zero2]
  funext j
  obtain ⟨p, q, rfl⟩ : ∃ (p : Fin 4000) (q : Fin 1), j = ix2 p q := ⟨j 0, j 1, eq_ix2 j⟩
  obtain rfl : q = 0 := Subsingleton.elim _ _
  refine (sage2head_block_apply (iblk2 V c 1 t) (iblk2 V c 0 t) (iblk2 V c 2 t) (iblk2 V c 3 t) (iblk2 V c 5 t)
    (iblk2 V c 4 t) (iblk2 V c 6 t) (iblk2 V c 7 t) p).trans ?_
  rw [View.read_apply]
  have hemb : ((View.whole main_v47).slice ((win2 8).rect t)).emb (ix2 p (0 : Fin 1)) = ix2 (row2 t p) (0 : Fin 1) := by
    obtain ⟨-, -, -, -, -, -, -, -, -, -, -, -, -, -, -, -, e0, e1⟩ := block_index2 t
    funext a
    apply Fin.ext
    match a with
    | ⟨0, _⟩ => show win2_8.index t (0 : Fin 2) * 4000 + 1 * p.val = t.val * 4000 + p.val; rw [e0]; omega
    | ⟨1, _⟩ => show win2_8.index t (1 : Fin 2) * 1 + 1 * 0 = 0; rw [e1]
  rw [hemb]
  show _ = sage2head (V c main_v41) (V c main_v26) (V c main_v30) (V c main_v42) (V c main_v45) (V c main_v43)
    (V c main_v44) (V c main_v46) (ix2 (row2 t p) 0)
  exact headBlock_eq_sage2head (V c main_v41) (V c main_v26) (V c main_v30) (V c main_v42) (V c main_v45) (V c main_v43)
    (V c main_v44) (V c main_v46)
    (iblk2 V c 1 t) (iblk2 V c 0 t) (iblk2 V c 2 t) (iblk2 V c 3 t) (iblk2 V c 5 t) (iblk2 V c 4 t) (iblk2 V c 6 t) (iblk2 V c 7 t)
    (row2 t p) p
    (fun k => nbr_block2 V c t p k) (deg_block2 V c t p 0) (fun k => feat_block2 V c t p k)
    (fun k q => wl_block2 V c t k q) (fun k q => wr_block2 V c t k q) (fun q => bl_block2 V c t 0 q)
    (fun j => hw_block2 V c t j 0) (hb_block2 V c t 0 0)

/-- An index of the result array is in point `t`'s block iff each coordinate is in the block's range on its axis. -/
theorem mem_blk2 (t : Fin cfg2.N) (i : S100000x1.Idx) :
    i ∈ ((cfg2.win 8).blk t).view.set ↔ ∀ a : Fin 2, win2_8.index t a * S4000x1.size a ≤ (i a).val ∧ (i a).val < win2_8.index t a * S4000x1.size a + S4000x1.size a := by
  show i ∈ ((View.whole main_v47).slice (win2_8.rect t)).set ↔ _
  rw [View.set_slice_whole, Rect.mem_set_unit]
  exact Iff.rfl

/-- Row `r` of the result lies in the block of point `r / 4000`, which writes back: the blocks cover the array. -/
theorem covered2 (i : S100000x1.Idx) :
    ∃ t : Fin cfg2.N, (cfg2.win 8).flush t = true ∧ i ∈ ((cfg2.win 8).blk t).view.set := by
  have hi0 : (i 0).val < 100000 := idx2_lt0 i
  have hi1 : (i 1).val < 1 := idx2_lt1 i
  have hN : cfg2.N = 25 := N_2
  obtain ⟨t, ht⟩ : ∃ t : Fin cfg2.N, t.val = (i 0).val / 4000 := ⟨⟨(i 0).val / 4000, by omega⟩, rfl⟩
  obtain ⟨-, -, -, -, -, -, -, -, -, -, -, -, -, -, -, -, e0, e1⟩ := block_index2 t
  refine ⟨t, flush2_8 t, ?_⟩
  rw [mem_blk2]
  intro a
  match a with
  | ⟨0, _⟩ => show win2_8.index t (0 : Fin 2) * 4000 ≤ (i 0).val ∧ (i 0).val < win2_8.index t (0 : Fin 2) * 4000 + 4000; rw [e0, ht]; omega
  | ⟨1, _⟩ => show win2_8.index t (1 : Fin 2) * 1 ≤ (i 1).val ∧ (i 1).val < win2_8.index t (1 : Fin 2) * 1 + 1; rw [e1]; omega

end SecondLayer

open SecondLayer

/-- After the region's last write-back the result array holds `sage2head` of the arrays the region found. -/
theorem region2_array (c : Dev nD) :
    (dat2 (F := Ideal) V c).arrAt 8 cfg2.N
      = sage2head (V c main_v41) (V c main_v26) (V c main_v30) (V c main_v42) (V c main_v45) (V c main_v43) (V c main_v44) (V c main_v46) := by
  exact (dat2 (F := Ideal) V c).arrAt_eq_of_cover 8
    (sage2head (V c main_v41) (V c main_v26) (V c main_v30) (V c main_v42) (V c main_v45) (V c main_v43) (V c main_v44) (V c main_v46))
    (fun t _ => flushed2_eq V c t) covered2

end Cert.KernelIdeal.Dense

end
-- ==== Proof.StageLib.lean ====
/-
  The small facts the three stages share: a bias vector laid out as a row, the graph step and the in-degree as the reference spells them, the reciprocal degree read at a node, and the one law of the extended reals this certificate uses: off zero, multiplying by the reciprocal is dividing. The floored in-degree is at least one, so it is never zero, whatever the edge list holds; no finiteness is needed.
-/
import proofs.«419804_j55628416418294_3_alg».proof.Proof.Gen.ReferenceIdeal.Read
import proofs.«419804_j55628416418294_3_alg».proof.Proof.Dense
import proofs.«419804_j55628416418294_3_alg».proof.Proof.Host
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.Dense

open Cert.KernelIdeal Cert.KernelIdeal.Gen Idealize.ShloMosaic Idealize.ShloMosaic.ValueIdx
open Cert.ReferenceIdeal.Read

/-- The float one, kept as its word. -/
abbrev one32 : EReal := Ideal.ofBits .f32 0x3F800000#32

/-! ## The layout pieces -/

/-- A bias vector as a one-row matrix is the reference's broadcast of it to one row. -/
theorem biasRow_eq (b : FVec Ideal S64 .f32) :
    shapeCast S1x64 b shapeCasts_S64_S1x64 = val_main_v6 (F := Ideal) b := by
  funext j
  rw [val_main_v6_apply]
  refine shapeCast_apply b shapeCasts_S64_S1x64 j (idx_main_v6 j) ?_
  rw [Shape.rowMajor_val_one, Shape.rowMajor_val_two]
  have h0 : (j 0).val < 1 := (j 0).isLt
  show (j 1).val = (j 0).val * 64 + (j 1).val
  omega

/-- The head's bias as a one-by-one matrix is the reference's broadcast of it. -/
theorem headBias_eq (b : FVec Ideal S1 .f32) :
    shapeCast S1x1 b shapeCasts_S1_S1x1 = val_main_v67 (F := Ideal) b := by
  funext j
  rw [val_main_v67_apply]
  refine shapeCast_apply b shapeCasts_S1_S1x1 j (idx_main_v67 j) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-! ## The graph step as the reference spells it -/

/-- The neighbour sum of the reference's first stage is the reference's own graph step. -/
theorem graphStep1_eq (x0 : FVec Ideal S100000x128 .f32) (x1 : IVec S2x3200000 32) (x3 : FVec Ideal S64x128 .f32) (x4 : FVec Ideal S64 .f32) :
    neighbourSum (edgeSrc x1) (edgeDst x1) (val_main_v9 (F := Ideal) x0 x3 x4) = val_main_v19 (F := Ideal) x0 x1 x3 x4 := by
  rfl

/-- The neighbour sum of the reference's second stage is the reference's own second graph step. -/
theorem graphStep2_eq (x0 : FVec Ideal S100000x128 .f32) (x1 : IVec S2x3200000 32) (x3 : FVec Ideal S64x128 .f32) (x4 : FVec Ideal S64 .f32)
    (x5 : FVec Ideal S64x64 .f32) (x6 : FVec Ideal S64 .f32) (x7 : FVec Ideal S64x64 .f32) :
    neighbourSum (edgeSrc x1) (edgeDst x1) (val_main_v37 (F := Ideal) x0 x1 x3 x4 x5 x6 x7)
      = val_main_v47 (F := Ideal) x0 x1 x3 x4 x5 x6 x7 := by
  rfl

/-- The in-degree is the reference's first count of it. -/
theorem inDegree_eq1 (x1 : IVec S2x3200000 32) : inDegree (edgeDst x1) = val_main_v23 (F := Ideal) x1 := by
  rfl

/-- The in-degree is the reference's second count of it too. -/
theorem inDegree_eq2 (x1 : IVec S2x3200000 32) : inDegree (edgeDst x1) = val_main_v51 (F := Ideal) x1 := by
  rfl

/-! ## The reciprocal degree, and the law -/

/-- The reciprocal-degree column at node `p`: one over the in-degree of `p` raised to one. -/
theorem recipDegree_apply (dst : IVec S3200000 32) (p : Fin 100000) :
    recipDegree dst (ix2 p 0) = Ideal.div one32 (max (inDegree dst (ix1 p)) one32) := by
  unfold recipDegree degreeFloor
  rw [shapeCast_apply _ shapeCasts_S100000_S100000x1 (ix2 p (0 : Fin 1)) (ix1 p) (by
    rw [Shape.rowMajor_val_one, Shape.rowMajor_val_two]
    show p.val = p.val * 1 + 0
    omega)]
  rw [hostDivf_apply, maximumf_apply, broadcastInDim_scalar_apply, constant_apply]

/-- Off zero, multiplying by the reciprocal is dividing: for every extended real `a` and every `x`,
    `a · (1 / max x 1) = a / max x 1`. -/
theorem mul_recip_eq_div (a x : EReal) : a * Ideal.div one32 (max x one32) = Ideal.div a (max x one32) := by
  have h1 : one32 = 1 := Ideal.ofBits_one_f32
  have hD : max x one32 ≠ 0 :=
    ne_of_gt (lt_of_lt_of_le (by rw [h1]; exact zero_lt_one) (le_max_right x one32))
  unfold Ideal.div
  rw [if_neg hD, if_neg hD, h1, one_mul]

end Cert.KernelIdeal.Dense

end
-- ==== Proof.Stage0.lean ====
/-
  The input projection with its bias and rectifier against the reference's first stage: entry (p, q) of both is the rectified sum over k of x[p,k] · W[q,k] plus b[q]; the kernel contracts a row with a column of the transposed weights, the reference the same two vectors.
-/
import proofs.«419804_j55628416418294_3_alg».proof.Proof.Gen.ReferenceIdeal.Read
import proofs.«419804_j55628416418294_3_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Idealize.ShloMosaic Idealize.ShloMosaic.ValueIdx
open Cert.ReferenceIdeal.Read

namespace FirstStage

/-- The kernel's index into the input rows, row `i 0` and column `k`, is the reference's left index of the contraction. -/
theorem left_index (i : S100000x64.Idx) (k : Fin 128) :
    (ix2 (⟨(i 0).val, idx2_lt0 i⟩ : Fin 100000) k : S100000x128.Idx) = lidx_main_v5 i k :=
  funext fun a => match a with | ⟨0, _⟩ => rfl | ⟨1, _⟩ => rfl

/-- The kernel's index into the transposed weights, row `k` and column `i 1`, is the reference's right index. -/
theorem right_index (i : S100000x64.Idx) (k : Fin 128) :
    (ix2 k (⟨(i 1).val, idx2_lt1 i⟩ : Fin 64) : S128x64.Idx) = ridx_main_v5 i k :=
  funext fun a => match a with | ⟨0, _⟩ => rfl | ⟨1, _⟩ => rfl

/-- The kernel's index into the bias row, row `0` and column `i 1`, is where the reference's broadcast reads it. -/
theorem bias_index (i : S100000x64.Idx) :
    (ix2 (0 : Fin 1) (⟨(i 1).val, idx2_lt1 i⟩ : Fin 64) : S1x64.Idx) = idx_main_v7 i :=
  funext fun a => match a with | ⟨0, _⟩ => rfl | ⟨1, _⟩ => rfl

end FirstStage

/-- The projection, bias and rectifier: the reference's first stage. -/
theorem fcRelu_eq (x0 : FVec Ideal S100000x128 .f32) (x3 : FVec Ideal S64x128 .f32) (x4 : FVec Ideal S64 .f32) :
    fcRelu x0 (val_main_v4 (F := Ideal) x3) (val_main_v6 (F := Ideal) x4) = val_main_v9 (F := Ideal) x0 x3 x4 := by
  funext i
  rw [val_main_v9_apply, val_main_v8_apply, val_main_v5_apply, val_main_v7_apply, val_main_call0_v0_apply,
    val_main_call0_cst_apply]
  generalize val_main_v4 (F := Ideal) x3 = w
  generalize val_main_v6 (F := Ideal) x4 = b
  unfold fcRelu fcReluAt
  simp only [FirstStage.left_index, FirstStage.right_index, FirstStage.bias_index]
  rfl

end Cert.KernelIdeal.Dense

end
-- ==== Proof.Stage1.lean ====
/-
  The first graph layer against the reference's second stage. Entry (p, q) of the reference is the rectified (∑ k, (agg[p,k] / D[p]) · Wl[q,k] + bl[q]) + ∑ k, h[p,k] · Wr[q,k], with D the in-degree raised to one; the kernel has agg[p,k] · (1 / D[p]) in the quotient's place, the same extended real because D is not zero.
-/
import proofs.«419804_j55628416418294_3_alg».proof.Proof.Gen.ReferenceIdeal.Read
import proofs.«419804_j55628416418294_3_alg».proof.Proof.Dense
import proofs.«419804_j55628416418294_3_alg».proof.Proof.Host
import proofs.«419804_j55628416418294_3_alg».proof.Proof.StageLib
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Idealize.ShloMosaic Idealize.ShloMosaic.ValueIdx
open Cert.ReferenceIdeal.Read

namespace FirstLayerRef

/-- In the neighbour product, entry `(p, q)` reads the left operand at row `p`, contracted column `k`. -/
theorem nbr_left_index (p : Fin 100000) (q k : Fin 64) : lidx_main_v30 (ix2 p q) k = ix2 p k := by
  funext a; match a with | ⟨0, _⟩ => rfl | ⟨1, _⟩ => rfl

/-- In the neighbour product, entry `(p, q)` reads the weights at contracted row `k`, column `q`. -/
theorem nbr_right_index (p : Fin 100000) (q k : Fin 64) : ridx_main_v30 (ix2 p q) k = ix2 k q := by
  funext a; match a with | ⟨0, _⟩ => rfl | ⟨1, _⟩ => rfl

/-- In the root product, entry `(p, q)` reads the features at row `p`, contracted column `k`. -/
theorem root_left_index (p : Fin 100000) (q k : Fin 64) : lidx_main_v35 (ix2 p q) k = ix2 p k := by
  funext a; match a with | ⟨0, _⟩ => rfl | ⟨1, _⟩ => rfl

/-- In the root product, entry `(p, q)` reads the weights at contracted row `k`, column `q`. -/
theorem root_right_index (p : Fin 100000) (q k : Fin 64) : ridx_main_v35 (ix2 p q) k = ix2 k q := by
  funext a; match a with | ⟨0, _⟩ => rfl | ⟨1, _⟩ => rfl

/-- The floored degree is broadcast along each row: entry `(p, k)` reads node `p`. -/
theorem degree_index (p : Fin 100000) (k : Fin 64) : idx_main_v26 (idx_main_v27 (ix2 p k)) = ix1 p := by
  funext a; match a with | ⟨0, _⟩ => rfl

/-- The bias row is broadcast down each column: entry `(p, q)` reads entry `(0, q)` of the one-row matrix. -/
theorem bias_index (p : Fin 100000) (q : Fin 64) : idx_main_v32 (ix2 p q) = ix2 0 q := by
  funext a; match a with | ⟨0, _⟩ => rfl | ⟨1, _⟩ => rfl

/-- The reference's neighbour product at entry `(p, q)`: `∑ k, (agg[p,k] / max D[p] 1) · wl[k,q]`. -/
theorem nbr_product (x0 : FVec Ideal S100000x128 .f32) (x1 : IVec S2x3200000 32) (x3 : FVec Ideal S64x128 .f32) (x4 : FVec Ideal S64 .f32)
    (x5 : FVec Ideal S64x64 .f32) (p : Fin 100000) (q : Fin 64) :
    val_main_v30 (F := Ideal) x0 x1 x3 x4 x5 (ix2 p q)
      = ∑ k : Fin 64, Ideal.div (val_main_v19 (F := Ideal) x0 x1 x3 x4 (ix2 p k)) (max (val_main_v23 (F := Ideal) x1 (ix1 p)) one32)
          * val_main_v29 (F := Ideal) x5 (ix2 k q) := by
  rw [val_main_v30_apply]
  refine Finset.sum_congr rfl fun k _ => ?_
  rw [nbr_left_index, nbr_right_index, val_main_v28_apply, val_main_v27_apply, val_main_v26_apply, val_main_v25_apply,
    val_main_v24_apply, val_main_cst_3_apply, degree_index]
  rfl

/-- The reference's root product at entry `(p, q)`: `∑ k, h[p,k] · wr[k,q]`. -/
theorem root_product (x0 : FVec Ideal S100000x128 .f32) (x3 : FVec Ideal S64x128 .f32) (x4 : FVec Ideal S64 .f32)
    (x7 : FVec Ideal S64x64 .f32) (p : Fin 100000) (q : Fin 64) :
    val_main_v35 (F := Ideal) x0 x3 x4 x7 (ix2 p q)
      = ∑ k : Fin 64, val_main_v9 (F := Ideal) x0 x3 x4 (ix2 p k) * val_main_v34 (F := Ideal) x7 (ix2 k q) := by
  rw [val_main_v35_apply]
  refine Finset.sum_congr rfl fun k _ => ?_
  rw [root_left_index, root_right_index]

/-- The neighbour sum times the reciprocal degree is the neighbour sum over the floored in-degree. -/
theorem scaled_eq_quotient (x1 : IVec S2x3200000 32) (a : EReal) (p : Fin 100000) :
    a * recipDegree (edgeDst x1) (ix2 p 0) = Ideal.div a (max (val_main_v23 (F := Ideal) x1 (ix1 p)) one32) := by
  rw [recipDegree_apply, mul_recip_eq_div, inDegree_eq1]

end FirstLayerRef

/-- The first graph layer: the reference's second stage. -/
theorem layer1_eq (x0 : FVec Ideal S100000x128 .f32) (x1 : IVec S2x3200000 32) (x3 : FVec Ideal S64x128 .f32) (x4 : FVec Ideal S64 .f32)
    (x5 : FVec Ideal S64x64 .f32) (x6 : FVec Ideal S64 .f32) (x7 : FVec Ideal S64x64 .f32) :
    sage1 (val_main_v19 (F := Ideal) x0 x1 x3 x4) (recipDegree (edgeDst x1)) (val_main_v9 (F := Ideal) x0 x3 x4)
        (val_main_v29 (F := Ideal) x5) (val_main_v31 (F := Ideal) x6) (val_main_v34 (F := Ideal) x7)
      = val_main_v37 (F := Ideal) x0 x1 x3 x4 x5 x6 x7 := by
  funext i
  obtain ⟨p, q, rfl⟩ : ∃ (p : Fin 100000) (q : Fin 64), i = ix2 p q := ⟨i 0, i 1, eq_ix2 i⟩
  rw [val_main_v37_apply, val_main_v36_apply, val_main_v33_apply, FirstLayerRef.nbr_product, FirstLayerRef.root_product,
    val_main_v32_apply, FirstLayerRef.bias_index, val_main_call1_v0_apply, val_main_call1_cst_apply]
  unfold sage1
  show max (sageAt _ _ _ _ _ _ p q) zero32 = _
  unfold sageAt
  simp only [Ideal.maximumf_def, Ideal.addf_def, Ideal.ofBits_def, FirstLayerRef.scaled_eq_quotient]

end Cert.KernelIdeal.Dense

end
-- ==== Proof.Stage2.lean ====
/-
  The second graph layer and the head against the reference's result. Row p of the reference is ∑ j, L[p,j] · hw[0,j] + hb[0], with L[p,j] = (∑ k, (agg[p,k] / D[p]) · Wl[j,k] + bl[j]) + ∑ k, h[p,k] · Wr[j,k] and D the in-degree raised to one; the kernel has agg[p,k] · (1 / D[p]) in the quotient's place, the same extended real because D is not zero.
-/
import proofs.«419804_j55628416418294_3_alg».proof.Proof.Gen.ReferenceIdeal.Read
import proofs.«419804_j55628416418294_3_alg».proof.Proof.Dense
import proofs.«419804_j55628416418294_3_alg».proof.Proof.Host
import proofs.«419804_j55628416418294_3_alg».proof.Proof.StageLib
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Idealize.ShloMosaic Idealize.ShloMosaic.ValueIdx
open Cert.ReferenceIdeal.Read

namespace HeadAgainstReference

/-- `sage2head` at row `p` of its one column: the layer's row contracted with the head's column, plus the head's bias. -/
theorem sage2head_apply (a : FVec Ideal S100000x64 .f32) (d : FVec Ideal S100000x1 .f32) (h : FVec Ideal S100000x64 .bf16)
    (wlT : FVec Ideal S64x64 .f32) (bl : FVec Ideal S1x64 .f32) (wrT : FVec Ideal S64x64 .f32)
    (hwT : FVec Ideal S64x1 .f32) (hb : FVec Ideal S1x1 .f32) (p : Fin 100000) :
    sage2head a d h wlT bl wrT hwT hb (ix2 p 0)
      = (∑ j : Fin 64, sageAt a d h wlT bl wrT p j * hwT (ix2 j 0)) + hb (ix2 0 0) := rfl

/-- The degree the reference divides row `p`, column `k` by is read at node `p`. -/
theorem node_of_entry (p : Fin 100000) (k : Fin 64) : idx_main_v54 (idx_main_v55 (ix2 p k)) = ix1 p :=
  funext fun a => match a with | ⟨0, _⟩ => rfl

/-- The reference's scaled neighbour sum at row `p`, column `k`: the quotient by the floored in-degree of node `p` is
    the product with its reciprocal. -/
theorem scaled_apply (x0 : FVec Ideal S100000x128 .f32) (x1 : IVec S2x3200000 32) (x3 : FVec Ideal S64x128 .f32) (x4 : FVec Ideal S64 .f32)
    (x5 : FVec Ideal S64x64 .f32) (x6 : FVec Ideal S64 .f32) (x7 : FVec Ideal S64x64 .f32)
    (p : Fin 100000) (k : Fin 64) :
    val_main_v56 (F := Ideal) x0 x1 x3 x4 x5 x6 x7 (ix2 p k)
      = val_main_v47 (F := Ideal) x0 x1 x3 x4 x5 x6 x7 (ix2 p k) * recipDegree (edgeDst x1) (ix2 p 0) := by
  rw [val_main_v56_apply, val_main_v55_apply, val_main_v54_apply, val_main_v53_apply, val_main_v52_apply, val_main_cst_9_apply,
    node_of_entry, recipDegree_apply, inDegree_eq2, mul_recip_eq_div]
  rfl

/-- The reference's second graph layer at row `p`, column `j`, before the head, is `sageAt` of the reference's arrays. -/
theorem layer_apply (x0 : FVec Ideal S100000x128 .f32) (x1 : IVec S2x3200000 32) (x3 : FVec Ideal S64x128 .f32) (x4 : FVec Ideal S64 .f32)
    (x5 : FVec Ideal S64x64 .f32) (x6 : FVec Ideal S64 .f32) (x7 : FVec Ideal S64x64 .f32)
    (x8 : FVec Ideal S64x64 .f32) (x9 : FVec Ideal S64 .f32) (x10 : FVec Ideal S64x64 .f32) (p : Fin 100000) (j : Fin 64) :
    val_main_v64 (F := Ideal) x0 x1 x3 x4 x5 x6 x7 x8 x9 x10 (ix2 p j)
      = sageAt (val_main_v47 (F := Ideal) x0 x1 x3 x4 x5 x6 x7) (recipDegree (edgeDst x1)) (val_main_v37 (F := Ideal) x0 x1 x3 x4 x5 x6 x7)
          (val_main_v57 (F := Ideal) x8) (val_main_v59 (F := Ideal) x9) (val_main_v62 (F := Ideal) x10) p j := by
  have l58 : ∀ k : Fin 64, lidx_main_v58 (ix2 p j) k = ix2 p k :=
    fun k => funext fun a => match a with | ⟨0, _⟩ => rfl | ⟨1, _⟩ => rfl
  have r58 : ∀ k : Fin 64, ridx_main_v58 (ix2 p j) k = ix2 k j :=
    fun k => funext fun a => match a with | ⟨0, _⟩ => rfl | ⟨1, _⟩ => rfl
  have l63 : ∀ k : Fin 64, lidx_main_v63 (ix2 p j) k = ix2 p k :=
    fun k => funext fun a => match a with | ⟨0, _⟩ => rfl | ⟨1, _⟩ => rfl
  have r63 : ∀ k : Fin 64, ridx_main_v63 (ix2 p j) k = ix2 k j :=
    fun k => funext fun a => match a with | ⟨0, _⟩ => rfl | ⟨1, _⟩ => rfl
  have i60 : idx_main_v60 (ix2 p j) = ix2 0 j :=
    funext fun a => match a with | ⟨0, _⟩ => rfl | ⟨1, _⟩ => rfl
  rw [val_main_v64_apply, val_main_v61_apply, val_main_v58_apply, val_main_v63_apply, val_main_v60_apply]
  unfold sageAt
  simp only [l58, r58, l63, r63, i60, scaled_apply, Ideal.addf_def]

end HeadAgainstReference

open HeadAgainstReference

/-- The second graph layer and the head: the reference's result. -/
theorem layer2_eq (x0 : FVec Ideal S100000x128 .f32) (x1 : IVec S2x3200000 32) (x3 : FVec Ideal S64x128 .f32) (x4 : FVec Ideal S64 .f32)
    (x5 : FVec Ideal S64x64 .f32) (x6 : FVec Ideal S64 .f32) (x7 x8 : FVec Ideal S64x64 .f32) (x9 : FVec Ideal S64 .f32)
    (x10 : FVec Ideal S64x64 .f32) (x11 : FVec Ideal S1x64 .f32) (x12 : FVec Ideal S1 .f32) :
    sage2head (val_main_v47 (F := Ideal) x0 x1 x3 x4 x5 x6 x7) (recipDegree (edgeDst x1)) (val_main_v37 (F := Ideal) x0 x1 x3 x4 x5 x6 x7)
        (val_main_v57 (F := Ideal) x8) (val_main_v59 (F := Ideal) x9) (val_main_v62 (F := Ideal) x10)
        (val_main_v65 (F := Ideal) x11) (val_main_v67 (F := Ideal) x12)
      = val_main_v69 (F := Ideal) x0 x1 x3 x4 x5 x6 x7 x8 x9 x10 x11 x12 := by
  funext i
  obtain ⟨p, q, rfl⟩ : ∃ (p : Fin 100000) (q : Fin 1), i = ix2 p q := ⟨i 0, i 1, eq_ix2 i⟩
  obtain rfl : q = 0 := Subsingleton.elim _ _
  have l66 : ∀ k : Fin 64, lidx_main_v66 (ix2 p (0 : Fin 1)) k = ix2 p k :=
    fun k => funext fun a => match a with | ⟨0, _⟩ => rfl | ⟨1, _⟩ => rfl
  have r66 : ∀ k : Fin 64, ridx_main_v66 (ix2 p (0 : Fin 1)) k = ix2 k 0 :=
    fun k => funext fun a => match a with | ⟨0, _⟩ => rfl | ⟨1, _⟩ => rfl
  have i68 : idx_main_v68 (ix2 p (0 : Fin 1)) = ix2 0 0 :=
    funext fun a => match a with | ⟨0, _⟩ => rfl | ⟨1, _⟩ => rfl
  rw [sage2head_apply, val_main_v69_apply, val_main_v66_apply, val_main_v68_apply]
  simp only [l66, r66, i68, layer_apply, Ideal.addf_def]

end Cert.KernelIdeal.Dense

end
-- ==== Proof.Bridge.lean ====
/-
  The kernel's result array is the reference's result term of the same arguments. The three regions are
  chained: what the first leaves is the reference's first stage; the graph step of equal arrays is equal, so the
  second region is entered with the reference's neighbour sum and leaves the reference's second stage; the
  third likewise leaves the reference's result.
-/
import proofs.«419804_j55628416418294_3_alg».proof.Proof.Gen.ReferenceIdeal.Read
import proofs.«419804_j55628416418294_3_alg».proof.Proof.Dense
import proofs.«419804_j55628416418294_3_alg».proof.Proof.Host
import proofs.«419804_j55628416418294_3_alg».proof.Proof.Region0
import proofs.«419804_j55628416418294_3_alg».proof.Proof.Region1
import proofs.«419804_j55628416418294_3_alg».proof.Proof.Region2
import proofs.«419804_j55628416418294_3_alg».proof.Proof.StageLib
import proofs.«419804_j55628416418294_3_alg».proof.Proof.Stage0
import proofs.«419804_j55628416418294_3_alg».proof.Proof.Stage1
import proofs.«419804_j55628416418294_3_alg».proof.Proof.Stage2

set_option maxRecDepth 16384

noncomputable section

namespace Cert.KernelIdeal.Dense

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- What the first region leaves is the reference's first stage of the launch arrays. -/
theorem stage0 (c : Dev nD) :
    (dat0 (V1 m ρ) c).arrAt 3 cfg0.N = val_main_v9 (F := Ideal) (m ((c : Thread nD τ).loc main_arg0)) (m ((c : Thread nD τ).loc main_arg3)) (m ((c : Thread nD τ).loc main_arg4)) := by
  rw [region0_array (V1 m ρ) c, entry0_x m ρ c, entry0_wT m ρ c, entry0_b m ρ c, biasRow_eq]
  exact fcRelu_eq _ _ _

/-- What the second region leaves is the reference's second stage of the launch arrays. -/
theorem stage1 (c : Dev nD) :
    (dat1 (V3 m ρ) c).arrAt 6 cfg1.N
      = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [region1_array (V3 m ρ) c, entry1_agg m ρ c, entry1_deg m ρ c, entry1_h m ρ c, entry1_wlT m ρ c,
    entry1_bl m ρ c, entry1_wrT m ρ c, stage0 m ρ c, graphStep1_eq, biasRow_eq]
  exact layer1_eq _ _ _ _ _ _ _

/-- What the third region leaves is the reference's result of the launch arrays. -/
theorem stage2 (c : Dev nD) :
    (dat2 (V5 m ρ) c).arrAt 8 cfg2.N
      = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [region2_array (V5 m ρ) c, entry2_agg m ρ c, entry2_deg m ρ c, entry2_h m ρ c, entry2_wlT m ρ c,
    entry2_bl m ρ c, entry2_wrT m ρ c, entry2_hwT m ρ c, entry2_hb m ρ c, stage1 m ρ c, graphStep2_eq, biasRow_eq,
    headBias_eq]
  exact layer2_eq _ _ _ _ _ _ _ _ _ _ _ _

/-- The result array at the last segment boundary is the reference's result of the launch arrays. -/
theorem result_eq (c : Dev nD) :
    W6 m ρ c (Proc.devRef .tc main_v47)
      = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (last_out m ρ c).trans (stage2 m ρ c)

end Cert.KernelIdeal.Dense

end
-- ==== Proof.lean ====
/-
  The kernel is a two-layer graph network: a dense input projection with a rectifier, two graph layers (gather the
  node features at the edges' sources, add them at the edges' targets, scale by the reciprocal of the in-degree
  raised to one, two dense products and a bias; the first layer rectified), and a dense head; the three dense stages are
  three kernel regions over row blocks of 4000 nodes, the graph steps host operations between them. The reference
  is the same network on the host. On the extended reals the two differ in one place: the kernel multiplies the
  neighbour sum by `1 / max(deg, 1)` where the reference divides by `max(deg, 1)`; the divisor is at least one,
  hence not zero, and off zero the quotient is the product with the reciprocal for every extended real, so no
  finiteness of the inputs is used. Changes of float format are the identity, a block product into a zero accumulator is
  the host's contraction, and the graph step is the same function of equal arrays on both sides (never opened).

  The frames of the two kernel programs are the generated ones; the reference's frame is its generated run with the result
  dropped; the idealization ledger is empty. For the value: the program's run is taken once more with the result array
  named at the last segment boundary (Proof/RunNamed.lean), each region's array after its last write-back is a whole-array
  function of the arrays it found (Proof/Region0.lean, Region1.lean, Region2.lean, over the bodies read at an index in
  Proof/Payload.lean), the host stretches are read back (Proof/Host.lean), and the three stages are the reference's stages
  (Proof/Stage0.lean, Stage1.lean, Stage2.lean over Proof/StageLib.lean), chained in Proof/Bridge.lean.
-/
import proofs.«419804_j55628416418294_3_alg».proof.Defs
import proofs.«419804_j55628416418294_3_alg».proof.Proof.Gen.Kernel
import proofs.«419804_j55628416418294_3_alg».proof.Proof.Gen.Kernel.Skeleton
import proofs.«419804_j55628416418294_3_alg».proof.Proof.Gen.Kernel.Launch
import proofs.«419804_j55628416418294_3_alg».proof.Proof.Gen.Kernel.Points
import proofs.«419804_j55628416418294_3_alg».proof.Proof.Gen.Kernel.Frame
import proofs.«419804_j55628416418294_3_alg».proof.Proof.Gen.KernelIdeal
import proofs.«419804_j55628416418294_3_alg».proof.Proof.Gen.KernelIdeal.Skeleton
import proofs.«419804_j55628416418294_3_alg».proof.Proof.Gen.KernelIdeal.Launch
import proofs.«419804_j55628416418294_3_alg».proof.Proof.Gen.KernelIdeal.Points
import proofs.«419804_j55628416418294_3_alg».proof.Proof.Gen.KernelIdeal.Frame
import proofs.«419804_j55628416418294_3_alg».proof.Proof.Gen.ReferenceIdeal
import proofs.«419804_j55628416418294_3_alg».proof.Proof.Gen.Pre_finite_inputs
import proofs.«419804_j55628416418294_3_alg».proof.Proof.Gen.ReferenceIdeal.Run
import proofs.«419804_j55628416418294_3_alg».proof.Proof.Gen.ReferenceIdeal.Read
import proofs.«419804_j55628416418294_3_alg».proof.Proof.RunNamed
import proofs.«419804_j55628416418294_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the reference's result
    term of the kernel's launch arrays. -/
theorem algebraic : Cert.algebraic_KernelIdeal_ReferenceIdeal := by
  intro m ρ m' ρ' _ hagree
  refine ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Dense.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, -, e3, e4, e5, e6, e7, e8, e9, e10, e11, e12⟩ := hagree c
    rw [Cert.ReferenceIdeal.Read.val_main_v69_eq, e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
